-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x3 : Shape := ⟨2, ![1048576, 3]⟩
abbrev S2x4194304 : Shape := ⟨2, ![2, 4194304]⟩
abbrev S4194304x1 : Shape := ⟨2, ![4194304, 1]⟩
abbrev S1x3 : Shape := ⟨2, ![1, 3]⟩
abbrev S1048576 : Shape := ⟨1, ![1048576]⟩
abbrev S4x20 : Shape := ⟨2, ![4, 20]⟩
abbrev S20 : Shape := ⟨1, ![20]⟩
abbrev S20x3 : Shape := ⟨2, ![20, 3]⟩
abbrev S3 : Shape := ⟨1, ![3]⟩
abbrev S6x20 : Shape := ⟨2, ![6, 20]⟩
abbrev S_ : Shape := ⟨0, ![]⟩
abbrev S1x4194304 : Shape := ⟨2, ![1, 4194304]⟩
abbrev S4194304 : Shape := ⟨1, ![4194304]⟩

class Facts : Prop where
  bcast_S_S1048576x3 : S_.BroadcastsInDim S1048576x3 (![] : Fin 0 → Fin S1048576x3.rank)
  reducesTo_S1048576x3_S_d0_1 : S1048576x3.ReducesTo [0, 1] S_
  h_S_ : 0 < S_.numel
  bcast_S_S4194304x1 : S_.BroadcastsInDim S4194304x1 (![] : Fin 0 → Fin S4194304x1.rank)
  reducesTo_S4194304x1_S_d0_1 : S4194304x1.ReducesTo [0, 1] S_
  bcast_S_S1x3 : S_.BroadcastsInDim S1x3 (![] : Fin 0 → Fin S1x3.rank)
  reducesTo_S1x3_S_d0_1 : S1x3.ReducesTo [0, 1] S_
  bcast_S_S4x20 : S_.BroadcastsInDim S4x20 (![] : Fin 0 → Fin S4x20.rank)
  reducesTo_S4x20_S_d0_1 : S4x20.ReducesTo [0, 1] S_
  bcast_S_S20 : S_.BroadcastsInDim S20 (![] : Fin 0 → Fin S20.rank)
  reducesTo_S20_S_d0 : S20.ReducesTo [0] S_
  bcast_S_S20x3 : S_.BroadcastsInDim S20x3 (![] : Fin 0 → Fin S20x3.rank)
  reducesTo_S20x3_S_d0_1 : S20x3.ReducesTo [0, 1] S_
  bcast_S_S3 : S_.BroadcastsInDim S3 (![] : Fin 0 → Fin S3.rank)
  reducesTo_S3_S_d0 : S3.ReducesTo [0] S_
  bcast_S_S6x20 : S_.BroadcastsInDim S6x20 (![] : Fin 0 → Fin S6x20.rank)
  reducesTo_S6x20_S_d0_1 : S6x20.ReducesTo [0, 1] S_
  slices_S2x4194304_S1x4194304_0_0 : S2x4194304.Slices ![0, 0] S1x4194304
  shapeCasts_S1x4194304_S4194304 : S1x4194304.ShapeCasts S4194304
  bcast_S_S4194304 : S_.BroadcastsInDim S4194304 (![] : Fin 0 → Fin S4194304.rank)
  reducesTo_S4194304_S_d0 : S4194304.ReducesTo [0] S_

variable [Facts]

def fn_part3 {F : FTy → Type} [FloatOps F] (main_arg1 : IVec S2x4194304 32) (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  let main_v54 : IVec S1x4194304 32 := (extractStridedSlice S1x4194304 ![0, 0] · slices_S2x4194304_S1x4194304_0_0) main_arg1
  let main_v55 : IVec S4194304 32 := shapeCast S4194304 main_v54 shapeCasts_S1x4194304_S4194304
  let main_c_20 : IVec S_ 32 := constantI S_ 32 4293918720#32
  let main_v56 : IVec S4194304 32 := broadcastInDim S4194304 ![] bcast_S_S4194304 main_c_20
  let main_v57 : IVec S4194304 1 := cmpi .sge main_v55 main_v56
  let main_v58 : IVec S1x4194304 32 := (extractStridedSlice S1x4194304 ![0, 0] · slices_S2x4194304_S1x4194304_0_0) main_arg1
  let main_v59 : IVec S4194304 32 := shapeCast S4194304 main_v58 shapeCasts_S1x4194304_S4194304
  let main_c_21 : IVec S_ 32 := constantI S_ 32 1048576#32
  let main_v60 : IVec S4194304 32 := broadcastInDim S4194304 ![] bcast_S_S4194304 main_c_21
  let main_v61 : IVec S4194304 1 := cmpi .slt main_v59 main_v60
  let main_v62 : IVec S4194304 1 := andi main_v57 main_v61
  let main_c_22 : IVec S_ 1 := constantI S_ 1 1#1
  let main_v63 : IVec S_ 1 := (fun x v => Host.reduce IntOp.andi x v reducesTo_S4194304_S_d0 h_S_) main_v62 main_c_22
  let main_v64 : IVec S_ 1 := andi main_v53 main_v63
  main_v64

def fn_part2 {F : FTy → Type} [FloatOps F] (main_arg1 : IVec S2x4194304 32) (main_arg9 : FVec F S6x20 .f32) (main_arg10 : FVec F S20 .f32) (main_arg11 : FVec F S20x3 .f32) (main_arg12 : FVec F S3 .f32) (main_v33 : IVec S_ 1) : IVec S_ 1 :=
  let main_v34 : FVec F S6x20 .f32 := Host.absf main_arg9
  let main_cst_12 : FVec F S_ .f32 := constant S_ .f32 0x7F800000#32
  let main_v35 : FVec F S6x20 .f32 := broadcastInDim S6x20 ![] bcast_S_S6x20 main_cst_12
  let main_v36 : IVec S6x20 1 := cmpf .olt main_v34 main_v35
  let main_c_13 : IVec S_ 1 := constantI S_ 1 1#1
  let main_v37 : IVec S_ 1 := (fun x v => Host.reduce IntOp.andi x v reducesTo_S6x20_S_d0_1 h_S_) main_v36 main_c_13
  let main_v38 : IVec S_ 1 := andi main_v33 main_v37
  let main_v39 : FVec F S20 .f32 := Host.absf main_arg10
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S20x3 .f32 := Host.absf main_arg11
  let main_cst_16 : FVec F S_ .f32 := constant S_ .f32 0x7F800000#32
  let main_v45 : FVec F S20x3 .f32 := broadcastInDim S20x3 ![] bcast_S_S20x3 main_cst_16
  let main_v46 : IVec S20x3 1 := cmpf .olt main_v44 main_v45
  let main_c_17 : IVec S_ 1 := constantI S_ 1 1#1
  let main_v47 : IVec S_ 1 := (fun x v => Host.reduce IntOp.andi x v reducesTo_S20x3_S_d0_1 h_S_) main_v46 main_c_17
  let main_v48 : IVec S_ 1 := andi main_v43 main_v47
  let main_v49 : FVec F S3 .f32 := Host.absf main_arg12
  let main_cst_18 : FVec F S_ .f32 := constant S_ .f32 0x7F800000#32
  let main_v50 : FVec F S3 .f32 := broadcastInDim S3 ![] bcast_S_S3 main_cst_18
  fn_part3 (F := F) main_arg1 main_v48 main_v49 main_v50

def fn_part1 {F : FTy → Type} [FloatOps F] (main_arg1 : IVec S2x4194304 32) (main_arg6 : FVec F S20 .f32) (main_arg7 : FVec F S20x3 .f32) (main_arg8 : FVec F S3 .f32) (main_arg9 : FVec F S6x20 .f32) (main_arg10 : FVec F S20 .f32) (main_arg11 : FVec F S20x3 .f32) (main_arg12 : FVec F S3 .f32) (main_v13 : IVec S_ 1) (main_v16 : IVec S4x20 1) : IVec S_ 1 :=
  let main_c_5 : IVec S_ 1 := constantI S_ 1 1#1
  let main_v17 : IVec S_ 1 := (fun x v => Host.reduce IntOp.andi x v reducesTo_S4x20_S_d0_1 h_S_) main_v16 main_c_5
  let main_v18 : IVec S_ 1 := andi main_v13 main_v17
  let main_v19 : FVec F S20 .f32 := Host.absf main_arg6
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S20x3 .f32 := Host.absf main_arg7
  let main_cst_8 : FVec F S_ .f32 := constant S_ .f32 0x7F800000#32
  let main_v25 : FVec F S20x3 .f32 := broadcastInDim S20x3 ![] bcast_S_S20x3 main_cst_8
  let main_v26 : IVec S20x3 1 := cmpf .olt main_v24 main_v25
  let main_c_9 : IVec S_ 1 := constantI S_ 1 1#1
  let main_v27 : IVec S_ 1 := (fun x v => Host.reduce IntOp.andi x v reducesTo_S20x3_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S1048576x3 .f32) (main_arg1 : IVec S2x4194304 32) (main_arg2 : FVec F S4194304x1 .f32) (main_arg3 : FVec F S1x3 .f32) (main_arg4 : IVec S1048576 32) (main_arg5 : FVec F S4x20 .f32) (main_arg6 : FVec F S20 .f32) (main_arg7 : FVec F S20x3 .f32) (main_arg8 : FVec F S3 .f32) (main_arg9 : FVec F S6x20 .f32) (main_arg10 : FVec F S20 .f32) (main_arg11 : FVec F S20x3 .f32) (main_arg12 : FVec F S3 .f32) : IVec S_ 1 :=
  let main_v0 : FVec F S1048576x3 .f32 := Host.absf main_arg0
  let main_cst : FVec F S_ .f32 := constant S_ .f32 0x7F800000#32
  let main_v1 : FVec F S1048576x3 .f32 := broadcastInDim S1048576x3 ![] bcast_S_S1048576x3 main_cst
  let main_v2 : IVec S1048576x3 1 := cmpf .olt main_v0 main_v1
  let main_c : IVec S_ 1 := constantI S_ 1 1#1
  let main_v3 : IVec S_ 1 := (fun x v => Host.reduce IntOp.andi x v reducesTo_S1048576x3_S_d0_1 h_S_) main_v2 main_c
  let main_v4 : FVec F S4194304x1 .f32 := Host.absf main_arg2
  let main_cst_0 : FVec F S_ .f32 := constant S_ .f32 0x7F800000#32
  let main_v5 : FVec F S4194304x1 .f32 := broadcastInDim S4194304x1 ![] bcast_S_S4194304x1 main_cst_0
  let main_v6 : IVec S4194304x1 1 := cmpf .olt main_v4 main_v5
  let main_c_1 : IVec S_ 1 := constantI S_ 1 1#1
  let main_v7 : IVec S_ 1 := (fun x v => Host.reduce IntOp.andi x v reducesTo_S4194304x1_S_d0_1 h_S_) main_v6 main_c_1
  let main_v8 : IVec S_ 1 := andi main_v3 main_v7
  let main_v9 : FVec F S1x3 .f32 := Host.absf main_arg3
  let main_cst_2 : FVec F S_ .f32 := constant S_ .f32 0x7F800000#32
  let main_v10 : FVec F S1x3 .f32 := broadcastInDim S1x3 ![] bcast_S_S1x3 main_cst_2
  let main_v11 : IVec S1x3 1 := cmpf .olt main_v9 main_v10
  let main_c_3 : IVec S_ 1 := constantI S_ 1 1#1
  let main_v12 : IVec S_ 1 := (fun x v => Host.reduce IntOp.andi x v reducesTo_S1x3_S_d0_1 h_S_) main_v11 main_c_3
  let main_v13 : IVec S_ 1 := andi main_v8 main_v12
  let main_v14 : FVec F S4x20 .f32 := Host.absf main_arg5
  let main_cst_4 : FVec F S_ .f32 := constant S_ .f32 0x7F800000#32
  let main_v15 : FVec F S4x20 .f32 := broadcastInDim S4x20 ![] bcast_S_S4x20 main_cst_4
  let main_v16 : IVec S4x20 1 := cmpf .olt main_v14 main_v15
  fn_part1 (F := F) main_arg1 main_arg6 main_arg7 main_arg8 main_arg9 main_arg10 main_arg11 main_arg12 main_v13 main_v16
-- ==== Kernel.lean ====
abbrev S1048576x3 : Shape := ⟨2, ![1048576, 3]⟩
abbrev S2x4194304 : Shape := ⟨2, ![2, 4194304]⟩
abbrev S4194304x1 : Shape := ⟨2, ![4194304, 1]⟩
abbrev S1x3 : Shape := ⟨2, ![1, 3]⟩
abbrev S1048576 : Shape := ⟨1, ![1048576]⟩
abbrev S4x20 : Shape := ⟨2, ![4, 20]⟩
abbrev S20 : Shape := ⟨1, ![20]⟩
abbrev S20x3 : Shape := ⟨2, ![20, 3]⟩
abbrev S3 : Shape := ⟨1, ![3]⟩
abbrev S6x20 : Shape := ⟨2, ![6, 20]⟩
abbrev S1x4194304 : Shape := ⟨2, ![1, 4194304]⟩
abbrev S4194304 : Shape := ⟨1, ![4194304]⟩
abbrev S3x1048576 : Shape := ⟨2, ![3, 1048576]⟩
abbrev S_ : Shape := ⟨0, ![]⟩
abbrev S1 : Shape := ⟨1, ![1]⟩
abbrev S1x1 : Shape := ⟨2, ![1, 1]⟩
abbrev S3x4194304 : Shape := ⟨2, ![3, 4194304]⟩
abbrev S4x4194304 : Shape := ⟨2, ![4, 4194304]⟩
abbrev S20x4 : Shape := ⟨2, ![20, 4]⟩
abbrev S20x1 : Shape := ⟨2, ![20, 1]⟩
abbrev S3x20 : Shape := ⟨2, ![3, 20]⟩
abbrev S3x1 : Shape := ⟨2, ![3, 1]⟩
abbrev S4x65536 : Shape := ⟨2, ![4, 65536]⟩
abbrev S20x65536 : Shape := ⟨2, ![20, 65536]⟩
abbrev S3x65536 : Shape := ⟨2, ![3, 65536]⟩
abbrev S1x65536 : Shape := ⟨2, ![1, 65536]⟩
abbrev S4194304x4 : Shape := ⟨2, ![4194304, 4]⟩
abbrev S1048576x4 : Shape := ⟨2, ![1048576, 4]⟩
abbrev S4x1048576 : Shape := ⟨2, ![4, 1048576]⟩
abbrev S20x6 : Shape := ⟨2, ![20, 6]⟩
abbrev S6x65536 : Shape := ⟨2, ![6, 65536]⟩
abbrev S65536 : Shape := ⟨1, ![65536]⟩

abbrev nBuf : Space → Nat
  | .hbm => 60
  | .vmem => 18
  | .smem => 0
  | _ => 0

abbrev bufTy : (tb : Table) → Fin (tcTables nBuf tb) → BufTy
  | .hbm, ⟨0, _⟩ => ⟨S1048576x3, .f32⟩
  | .hbm, ⟨1, _⟩ => ⟨S2x4194304, .i32⟩
  | .hbm, ⟨2, _⟩ => ⟨S4194304x1, .f32⟩
  | .hbm, ⟨3, _⟩ => ⟨S1x3, .f32⟩
  | .hbm, ⟨4, _⟩ => ⟨S1048576, .i32⟩
  | .hbm, ⟨5, _⟩ => ⟨S4x20, .f32⟩
  | .hbm, ⟨6, _⟩ => ⟨S20, .f32⟩
  | .hbm, ⟨7, _⟩ => ⟨S20x3, .f32⟩
  | .hbm, ⟨8, _⟩ => ⟨S3, .f32⟩
  | .hbm, ⟨9, _⟩ => ⟨S6x20, .f32⟩
  | .hbm, ⟨10, _⟩ => ⟨S20, .f32⟩
  | .hbm, ⟨11, _⟩ => ⟨S20x3, .f32⟩
  | .hbm, ⟨12, _⟩ => ⟨S3, .f32⟩
  | .hbm, ⟨13, _⟩ => ⟨S1x4194304, .i32⟩
  | .hbm, ⟨14, _⟩ => ⟨S4194304, .i32⟩
  | .hbm, ⟨15, _⟩ => ⟨S1x4194304, .i32⟩
  | .hbm, ⟨16, _⟩ => ⟨S4194304, .i32⟩
  | .hbm, ⟨17, _⟩ => ⟨S3x1048576, .f32⟩
  | .hbm, ⟨18, _⟩ => ⟨S_, .i32⟩
  | .hbm, ⟨19, _⟩ => ⟨S4194304, .i32⟩
  | .hbm, ⟨20, _⟩ => ⟨S4194304, .i1⟩
  | .hbm, ⟨21, _⟩ => ⟨S_, .i32⟩
  | .hbm, ⟨22, _⟩ => ⟨S4194304, .i32⟩
  | .hbm, ⟨23, _⟩ => ⟨S4194304, .i32⟩
  | .hbm, ⟨24, _⟩ => ⟨S4194304, .i32⟩
  | .hbm, ⟨25, _⟩ => ⟨S4194304x1, .i32⟩
  | .hbm, ⟨26, _⟩ => ⟨S1, .i32⟩
  | .hbm, ⟨27, _⟩ => ⟨S_, .i32⟩
  | .hbm, ⟨28, _⟩ => ⟨S4194304x1, .i32⟩
  | .hbm, ⟨29, _⟩ => ⟨S4194304x1, .i1⟩
  | .hbm, ⟨30, _⟩ => ⟨S1x1, .i32⟩
  | .hbm, ⟨31, _⟩ => ⟨S4194304x1, .i32⟩
  | .hbm, ⟨32, _⟩ => ⟨S4194304x1, .i1⟩
  | .hbm, ⟨33, _⟩ => ⟨S4194304x1, .i1⟩
  | .hbm, ⟨34, _⟩ => ⟨S_, .i1⟩
  | .hbm, ⟨35, _⟩ => ⟨S4194304, .i1⟩
  | .hbm, ⟨36, _⟩ => ⟨S3x4194304, .f32⟩
  | .hbm, ⟨37, _⟩ => ⟨S3x4194304, .i1⟩
  | .hbm, ⟨38, _⟩ => ⟨S_, .f32⟩
  | .hbm, ⟨39, _⟩ => ⟨S3x4194304, .f32⟩
  | .hbm, ⟨40, _⟩ => ⟨S3x4194304, .f32⟩
  | .hbm, ⟨41, _⟩ => ⟨S1x4194304, .f32⟩
  | .hbm, ⟨42, _⟩ => ⟨S4x4194304, .f32⟩
  | .hbm, ⟨43, _⟩ => ⟨S20x4, .f32⟩
  | .hbm, ⟨44, _⟩ => ⟨S20x1, .f32⟩
  | .hbm, ⟨45, _⟩ => ⟨S3x20, .f32⟩
  | .hbm, ⟨46, _⟩ => ⟨S3x1, .f32⟩
  | .hbm, ⟨47, _⟩ => ⟨S4x4194304, .f32⟩
  | .hbm, ⟨48, _⟩ => ⟨S4194304x4, .f32⟩
  | .hbm, ⟨49, _⟩ => ⟨S_, .f32⟩
  | .hbm, ⟨50, _⟩ => ⟨S1048576x4, .f32⟩
  | .hbm, ⟨51, _⟩ => ⟨S4194304x1, .i32⟩
  | .hbm, ⟨52, _⟩ => ⟨S1048576x4, .f32⟩
  | .hbm, ⟨53, _⟩ => ⟨S4x1048576, .f32⟩
  | .hbm, ⟨54, _⟩ => ⟨S20x6, .f32⟩
  | .hbm, ⟨55, _⟩ => ⟨S20x1, .f32⟩
  | .hbm, ⟨56, _⟩ => ⟨S3x20, .f32⟩
  | .hbm, ⟨57, _⟩ => ⟨S3x1, .f32⟩
  | .hbm, ⟨58, _⟩ => ⟨S3x1048576, .f32⟩
  | .hbm, ⟨59, _⟩ => ⟨S1048576x3, .f32⟩
  | .local _ .vmem, ⟨0, _⟩ => ⟨S4x65536, .f32⟩
  | .local _ .vmem, ⟨1, _⟩ => ⟨S4x65536, .f32⟩
  | .local _ .vmem, ⟨2, _⟩ => ⟨S20x4, .f32⟩
  | .local _ .vmem, ⟨3, _⟩ => ⟨S20x1, .f32⟩
  | .local _ .vmem, ⟨4, _⟩ => ⟨S3x20, .f32⟩
  | .local _ .vmem, ⟨5, _⟩ => ⟨S3x1, .f32⟩
  | .local _ .vmem, ⟨6, _⟩ => ⟨S4x65536, .f32⟩
  | .local _ .vmem, ⟨7, _⟩ => ⟨S4x65536, .f32⟩
  | .local _ .vmem, ⟨8, _⟩ => ⟨S3x65536, .f32⟩
  | .local _ .vmem, ⟨9, _⟩ => ⟨S3x65536, .f32⟩
  | .local _ .vmem, ⟨10, _⟩ => ⟨S4x65536, .f32⟩
  | .local _ .vmem, ⟨11, _⟩ => ⟨S4x65536, .f32⟩
  | .local _ .vmem, ⟨12, _⟩ => ⟨S20x6, .f32⟩
  | .local _ .vmem, ⟨13, _⟩ => ⟨S20x1, .f32⟩
  | .local _ .vmem, ⟨14, _⟩ => ⟨S3x20, .f32⟩
  | .local _ .vmem, ⟨15, _⟩ => ⟨S3x1, .f32⟩
  | .local _ .vmem, ⟨16, _⟩ => ⟨S3x65536, .f32⟩
  | .local _ .vmem, ⟨17, _⟩ => ⟨S3x65536, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S3x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x65536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S20x6 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S20x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3x65536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  transposes_S1048576x3_S3x1048576_1_0 : S1048576x3.Transposes [1, 0] S3x1048576
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  h_S_ : 0 < S_.numel
  bcast_S4194304_S3x4194304_1 : S4194304.BroadcastsInDim S3x4194304 (![1] : Fin 1 → Fin S3x4194304.rank)
  bcast_S_S3x4194304 : S_.BroadcastsInDim S3x4194304 (![] : Fin 0 → Fin S3x4194304.rank)
  shapeCasts_S4194304x1_S1x4194304 : S4194304x1.ShapeCasts S1x4194304
  concatenates_S3x4194304_S1x4194304_S4x4194304_d0 : Shape.Concatenates [S3x4194304, S1x4194304] S4x4194304 0
  transposes_S4x20_S20x4_1_0 : S4x20.Transposes [1, 0] S20x4
  shapeCasts_S20_S20x1 : S20.ShapeCasts S20x1
  transposes_S20x3_S3x20_1_0 : S20x3.Transposes [1, 0] S3x20
  shapeCasts_S3_S3x1 : S3.ShapeCasts S3x1
  inb_S4x65536_S4x65536_0_0 : ∀ a, (![0, 0] : Fin 2 → Nat) a + S4x65536.size a ≤ S4x65536.size a
  h_S4x65536 : 0 < S4x65536.numel
  shapeCasts_S4x65536_S4x65536 : S4x65536.ShapeCasts S4x65536
  bitsLt_bf16_f32 : FTy.bits .bf16 < FTy.bits .f32
  inb_S20x4_S20x4_0_0 : ∀ a, (![0, 0] : Fin 2 → Nat) a + S20x4.size a ≤ S20x4.size a
  h_S20x4 : 0 < S20x4.numel
  shapeCasts_S20x4_S20x4 : S20x4.ShapeCasts S20x4
  inb_S20x1_S20x1_0_0 : ∀ a, (![0, 0] : Fin 2 → Nat) a + S20x1.size a ≤ S20x1.size a
  h_S20x1 : 0 < S20x1.numel
  shapeCasts_S20x1_S20x1 : S20x1.ShapeCasts S20x1
  broadcasts_S20x1_S20x65536 : S20x1.Broadcasts S20x65536
  inb_S3x20_S3x20_0_0 : ∀ a, (![0, 0] : Fin 2 → Nat) a + S3x20.size a ≤ S3x20.size a
  h_S3x20 : 0 < S3x20.numel
  shapeCasts_S3x20_S3x20 : S3x20.ShapeCasts S3x20
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x65536 : S3x1.Broadcasts S3x65536
  concatenates_S3x65536_S1x65536_S4x65536_d0 : Shape.Concatenates [S3x65536, S1x65536] S4x65536 0
  transposes_S4x4194304_S4194304x4_1_0 : S4x4194304.Transposes [1, 0] S4194304x4
  bcast_S_S1048576x4 : S_.BroadcastsInDim S1048576x4 (![] : Fin 0 → Fin S1048576x4.rank)
  transposes_S1048576x4_S4x1048576_1_0 : S1048576x4.Transposes [1, 0] S4x1048576
  transposes_S6x20_S20x6_1_0 : S6x20.Transposes [1, 0] S20x6
  inb_S3x65536_S3x65536_0_0 : ∀ a, (![0, 0] : Fin 2 → Nat) a + S3x65536.size a ≤ S3x65536.size a
  h_S3x65536 : 0 < S3x65536.numel
  shapeCasts_S3x65536_S3x65536 : S3x65536.ShapeCasts S3x65536
  slices_S4x65536_o0_0_S3x65536 : S4x65536.Slices ![0, 0] S3x65536
  slices_S4x65536_o3_0_S1x65536 : S4x65536.Slices ![3, 0] S1x65536
  broadcasts_S1x65536_S3x65536 : S1x65536.Broadcasts S3x65536
  concatenates_S3x65536_S3x65536_S6x65536_d0 : Shape.Concatenates [S3x65536, S3x65536] S6x65536 0
  inb_S20x6_S20x6_0_0 : ∀ a, (![0, 0] : Fin 2 → Nat) a + S20x6.size a ≤ S20x6.size a
  h_S20x6 : 0 < S20x6.numel
  shapeCasts_S20x6_S20x6 : S20x6.ShapeCasts S20x6
  reduces_S3x65536_S65536 : S3x65536.Reduces [0] S65536
  shapeCasts_S65536_S1x65536 : S65536.ShapeCasts S1x65536
  transposes_S3x1048576_S1048576x3_1_0 : S3x1048576.Transposes [1, 0] S1048576x3
  gather_S3x1048576_S4194304x1_S3x4194304_0_1_n_n_1_1_31_wf : GatherDims.WF S3x1048576 S4194304x1 S3x4194304 [0] [1] [] [1] [] 1 ![3, 1]
  dot_S20x4_S4x65536_S20x65536_1_0_0_1_n_n_wf : DotDims.WF S20x4 S4x65536 S20x65536 [1] [0] [0] [1] [] []
  dot_S3x20_S20x65536_S3x65536_1_0_0_1_n_n_wf : DotDims.WF S3x20 S20x65536 S3x65536 [1] [0] [0] [1] [] []
  scatter_S1048576x4_S4194304x1_S4194304x4_1_0_0_1_wf : ScatterDims.WF S1048576x4 S4194304x1 S4194304x4 [1] [0] [0] 1
  dot_S20x6_S6x65536_S20x65536_1_0_0_1_n_n_wf : DotDims.WF S20x6 S6x65536 S20x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x65536.size a ≤ S4x4194304.size a
  hwx0_0 : ∀ i : grid0.Coords, EltTy.bits .f32 = 32 ∨ (Rect.block (s := S4x4194304) S4x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x4.size a ≤ S20x4.size a
  hwx0_1 : ∀ i : grid0.Coords, EltTy.bits .f32 = 32 ∨ (Rect.block (s := S20x4) S20x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x1.size a ≤ S20x1.size a
  hwx0_2 : ∀ i : grid0.Coords, EltTy.bits .f32 = 32 ∨ (Rect.block (s := S20x1) S20x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x20.size a ≤ S3x20.size a
  hwx0_3 : ∀ i : grid0.Coords, EltTy.bits .f32 = 32 ∨ (Rect.block (s := S3x20) S3x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1.size a ≤ S3x1.size a
  hwx0_4 : ∀ i : grid0.Coords, EltTy.bits .f32 = 32 ∨ (Rect.block (s := S3x1) S3x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x65536.size a ≤ S4x4194304.size a
  hwx0_5 : ∀ i : grid0.Coords, EltTy.bits .f32 = 32 ∨ (Rect.block (s := S4x4194304) S4x65536.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x65536.size a ≤ S3x1048576.size a
  hwx1_0 : ∀ i : grid1.Coords, EltTy.bits .f32 = 32 ∨ (Rect.block (s := S3x1048576) S3x65536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x65536.size a ≤ S4x1048576.size a
  hwx1_1 : ∀ i : grid1.Coords, EltTy.bits .f32 = 32 ∨ (Rect.block (s := S4x1048576) S4x65536.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20x6.size a ≤ S20x6.size a
  hwx1_2 : ∀ i : grid1.Coords, EltTy.bits .f32 = 32 ∨ (Rect.block (s := S20x6) S20x6.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S20x1.size a ≤ S20x1.size a
  hwx1_3 : ∀ i : grid1.Coords, EltTy.bits .f32 = 32 ∨ (Rect.block (s := S20x1) S20x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x20.size a ≤ S3x20.size a
  hwx1_4 : ∀ i : grid1.Coords, EltTy.bits .f32 = 32 ∨ (Rect.block (s := S3x20) S3x20.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x1.size a ≤ S3x1.size a
  hwx1_5 : ∀ i : grid1.Coords, EltTy.bits .f32 = 32 ∨ (Rect.block (s := S3x1) S3x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3x65536.size a ≤ S3x1048576.size a
  hwx1_6 : ∀ i : grid1.Coords, EltTy.bits .f32 = 32 ∨ (Rect.block (s := S3x1048576) S3x65536.size (cc1_transform_6 i) (hinb1_6 i)).WholeWords (EltTy.packing .f32)

variable [Facts₀]

def gather_S3x1048576_S4194304x1_S3x4194304_0_1_n_n_1_1_31 : GatherDims S3x1048576 S4194304x1 S3x4194304 where
  offsetDims := [0]
  collapsedSliceDims := [1]
  operandBatchingDims := []
  startIndicesBatchingDims := []
  startIndexMap := [1]
  indexVectorDim := 1
  sliceSizes := ![3, 1]
  wf := gather_S3x1048576_S4194304x1_S3x4194304_0_1_n_n_1_1_31_wf
def dot_S20x4_S4x65536_S20x65536_1_0_0_1_n_n : DotDims S20x4 S4x65536 S20x65536 where
  lhsContracting := [1]
  rhsContracting := [0]
  lhsNonContracting := [0]
  rhsNonContracting := [1]
  lhsBatch := []
  rhsBatch := []
  wf := dot_S20x4_S4x65536_S20x65536_1_0_0_1_n_n_wf
def dot_S3x20_S20x65536_S3x65536_1_0_0_1_n_n : DotDims S3x20 S20x65536 S3x65536 where
  lhsContracting := [1]
  rhsContracting := [0]
  lhsNonContracting := [0]
  rhsNonContracting := [1]
  lhsBatch := []
  rhsBatch := []
  wf := dot_S3x20_S20x65536_S3x65536_1_0_0_1_n_n_wf
def scatter_S1048576x4_S4194304x1_S4194304x4_1_0_0_1 : ScatterDims S1048576x4 S4194304x1 S4194304x4 where
  updateWindowDims := [1]
  insertedWindowDims := [0]
  scatterDimsToOperandDims := [0]
  indexVectorDim := 1
  wf := scatter_S1048576x4_S4194304x1_S4194304x4_1_0_0_1_wf
def dot_S20x6_S6x65536_S20x65536_1_0_0_1_n_n : DotDims S20x6 S6x65536 S20x65536 where
  lhsContracting := [1]
  rhsContracting := [0]
  lhsNonContracting := [0]
  rhsNonContracting := [1]
  lhsBatch := []
  rhsBatch := []
  wf := dot_S20x6_S6x65536_S20x65536_1_0_0_1_n_n_wf

abbrev win0_0 : Pipeline.Window sig grid0 :=
  Pipeline.Window.ofSpec (Memref.whole main_v7) S4x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S20x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S20x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S3x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S3x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4x65536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S3x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4x65536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S20x6.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S20x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S3x20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S3x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S3x65536.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1048576x3 : Shape := ⟨2, ![1048576, 3]⟩
abbrev S2x4194304 : Shape := ⟨2, ![2, 4194304]⟩
abbrev S4194304x1 : Shape := ⟨2, ![4194304, 1]⟩
abbrev S1x3 : Shape := ⟨2, ![1, 3]⟩
abbrev S1048576 : Shape := ⟨1, ![1048576]⟩
abbrev S4x20 : Shape := ⟨2, ![4, 20]⟩
abbrev S20 : Shape := ⟨1, ![20]⟩
abbrev S20x3 : Shape := ⟨2, ![20, 3]⟩
abbrev S3 : Shape := ⟨1, ![3]⟩
abbrev S6x20 : Shape := ⟨2, ![6, 20]⟩
abbrev S1x4194304 : Shape := ⟨2, ![1, 4194304]⟩
abbrev S4194304 : Shape := ⟨1, ![4194304]⟩
abbrev S_ : Shape := ⟨0, ![]⟩
abbrev S4194304x3 : Shape := ⟨2, ![4194304, 3]⟩
abbrev S4194304x4 : Shape := ⟨2, ![4194304, 4]⟩
abbrev S4194304x20 : Shape := ⟨2, ![4194304, 20]⟩
abbrev S1x20 : Shape := ⟨2, ![1, 20]⟩
abbrev S1048576x1 : Shape := ⟨2, ![1048576, 1]⟩
abbrev S1048576x6 : Shape := ⟨2, ![1048576, 6]⟩
abbrev S1048576x20 : Shape := ⟨2, ![1048576, 20]⟩

abbrev nBuf : Space → Nat
  | .hbm => 73
  | .vmem => 0
  | .smem => 0
  | _ => 0

abbrev bufTy : (tb : Table) → Fin (tcTables nBuf tb) → BufTy
  | .hbm, ⟨0, _⟩ => ⟨S1048576x3, .f32⟩
  | .hbm, ⟨1, _⟩ => ⟨S2x4194304, .i32⟩
  | .hbm, ⟨2, _⟩ => ⟨S4194304x1, .f32⟩
  | .hbm, ⟨3, _⟩ => ⟨S1x3, .f32⟩
  | .hbm, ⟨4, _⟩ => ⟨S1048576, .i32⟩
  | .hbm, ⟨5, _⟩ => ⟨S4x20, .f32⟩
  | .hbm, ⟨6, _⟩ => ⟨S20, .f32⟩
  | .hbm, ⟨7, _⟩ => ⟨S20x3, .f32⟩
  | .hbm, ⟨8, _⟩ => ⟨S3, .f32⟩
  | .hbm, ⟨9, _⟩ => ⟨S6x20, .f32⟩
  | .hbm, ⟨10, _⟩ => ⟨S20, .f32⟩
  | .hbm, ⟨11, _⟩ => ⟨S20x3, .f32⟩
  | .hbm, ⟨12, _⟩ => ⟨S3, .f32⟩
  | .hbm, ⟨13, _⟩ => ⟨S1x4194304, .i32⟩
  | .hbm, ⟨14, _⟩ => ⟨S4194304, .i32⟩
  | .hbm, ⟨15, _⟩ => ⟨S1x4194304, .i32⟩
  | .hbm, ⟨16, _⟩ => ⟨S4194304, .i32⟩
  | .hbm, ⟨17, _⟩ => ⟨S_, .i32⟩
  | .hbm, ⟨18, _⟩ => ⟨S4194304, .i32⟩
  | .hbm, ⟨19, _⟩ => ⟨S4194304, .i1⟩
  | .hbm, ⟨20, _⟩ => ⟨S_, .i32⟩
  | .hbm, ⟨21, _⟩ => ⟨S4194304, .i32⟩
  | .hbm, ⟨22, _⟩ => ⟨S4194304, .i32⟩
  | .hbm, ⟨23, _⟩ => ⟨S4194304, .i32⟩
  | .hbm, ⟨24, _⟩ => ⟨S4194304x1, .i32⟩
  | .hbm, ⟨25, _⟩ => ⟨S4194304x3, .f32⟩
  | .hbm, ⟨26, _⟩ => ⟨S4194304x4, .f32⟩
  | .hbm, ⟨27, _⟩ => ⟨S4194304x20, .f32⟩
  | .hbm, ⟨28, _⟩ => ⟨S1x20, .f32⟩
  | .hbm, ⟨29, _⟩ => ⟨S4194304x20, .f32⟩
  | .hbm, ⟨30, _⟩ => ⟨S4194304x20, .f32⟩
  | .hbm, ⟨31, _⟩ => ⟨S_, .f32⟩
  | .hbm, ⟨32, _⟩ => ⟨S4194304x20, .f32⟩
  | .hbm, ⟨33, _⟩ => ⟨S4194304x20, .f32⟩
  | .hbm, ⟨34, _⟩ => ⟨S4194304x3, .f32⟩
  | .hbm, ⟨35, _⟩ => ⟨S1x3, .f32⟩
  | .hbm, ⟨36, _⟩ => ⟨S4194304x3, .f32⟩
  | .hbm, ⟨37, _⟩ => ⟨S4194304x3, .f32⟩
  | .hbm, ⟨38, _⟩ => ⟨S_, .f32⟩
  | .hbm, ⟨39, _⟩ => ⟨S1048576x3, .f32⟩
  | .hbm, ⟨40, _⟩ => ⟨S4194304x1, .i32⟩
  | .hbm, ⟨41, _⟩ => ⟨S1048576x3, .f32⟩
  | .hbm, ⟨42, _⟩ => ⟨S_, .f32⟩
  | .hbm, ⟨43, _⟩ => ⟨S4194304, .f32⟩
  | .hbm, ⟨44, _⟩ => ⟨S_, .f32⟩
  | .hbm, ⟨45, _⟩ => ⟨S1048576, .f32⟩
  | .hbm, ⟨46, _⟩ => ⟨S4194304x1, .i32⟩
  | .hbm, ⟨47, _⟩ => ⟨S1048576, .f32⟩
  | .hbm, ⟨48, _⟩ => ⟨S_, .f32⟩
  | .hbm, ⟨49, _⟩ => ⟨S1048576, .f32⟩
  | .hbm, ⟨50, _⟩ => ⟨S1048576, .f32⟩
  | .hbm, ⟨51, _⟩ => ⟨S1048576x1, .f32⟩
  | .hbm, ⟨52, _⟩ => ⟨S1048576x3, .f32⟩
  | .hbm, ⟨53, _⟩ => ⟨S1048576x3, .f32⟩
  | .hbm, ⟨54, _⟩ => ⟨S1048576x6, .f32⟩
  | .hbm, ⟨55, _⟩ => ⟨S1048576x20, .f32⟩
  | .hbm, ⟨56, _⟩ => ⟨S1x20, .f32⟩
  | .hbm, ⟨57, _⟩ => ⟨S1048576x20, .f32⟩
  | .hbm, ⟨58, _⟩ => ⟨S1048576x20, .f32⟩
  | .hbm, ⟨59, _⟩ => ⟨S_, .f32⟩
  | .hbm, ⟨60, _⟩ => ⟨S1048576x20, .f32⟩
  | .hbm, ⟨61, _⟩ => ⟨S1048576x20, .f32⟩
  | .hbm, ⟨62, _⟩ => ⟨S1048576x3, .f32⟩
  | .hbm, ⟨63, _⟩ => ⟨S1x3, .f32⟩
  | .hbm, ⟨64, _⟩ => ⟨S1048576x3, .f32⟩
  | .hbm, ⟨65, _⟩ => ⟨S1048576x3, .f32⟩
  | .hbm, ⟨66, _⟩ => ⟨S1048576x3, .f32⟩
  | .hbm, ⟨67, _⟩ => ⟨S_, .f32⟩
  | .hbm, ⟨68, _⟩ => ⟨S1048576, .f32⟩
  | .hbm, ⟨69, _⟩ => ⟨S1048576x1, .f32⟩
  | .hbm, ⟨70, _⟩ => ⟨S1048576x1, .f32⟩
  | .hbm, ⟨71, _⟩ => ⟨S1048576x3, .f32⟩
  | .hbm, ⟨72, _⟩ => ⟨S1048576x3, .f32⟩
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_cst : Ref sig .tc := ⟨.hbm, 59, rfl⟩
abbrev main_call1_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x3_S4194304x1_S4194304x4_d1 : Shape.Concatenates [S4194304x3, S4194304x1] S4194304x4 1
  bcast_S20_S1x20_1 : S20.BroadcastsInDim S1x20 (![1] : Fin 1 → Fin S1x20.rank)
  bcast_S1x20_S4194304x20_0_1 : S1x20.BroadcastsInDim S4194304x20 (![0, 1] : Fin 2 → Fin S4194304x20.rank)
  bcast_S_S4194304x20 : S_.BroadcastsInDim S4194304x20 (![] : Fin 0 → Fin S4194304x20.rank)
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  bcast_S_S1048576x3 : S_.BroadcastsInDim S1048576x3 (![] : Fin 0 → Fin S1048576x3.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x3_0_1 : S1048576x1.BroadcastsInDim S1048576x3 (![0, 1] : Fin 2 → Fin S1048576x3.rank)
  concatenates_S1048576x3_S1048576x3_S1048576x6_d1 : Shape.Concatenates [S1048576x3, S1048576x3] S1048576x6 1
  bcast_S1x20_S1048576x20_0_1 : S1x20.BroadcastsInDim S1048576x20 (![0, 1] : Fin 2 → Fin S1048576x20.rank)
  bcast_S_S1048576x20 : S_.BroadcastsInDim S1048576x20 (![] : Fin 0 → Fin S1048576x20.rank)
  bcast_S1x3_S1048576x3_0_1 : S1x3.BroadcastsInDim S1048576x3 (![0, 1] : Fin 2 → Fin S1048576x3.rank)
  reducesTo_S1048576x3_S1048576_d1 : S1048576x3.ReducesTo [1] S1048576
  h_S_ : 0 < S_.numel
  gather_S1048576x3_S4194304x1_S4194304x3_1_0_n_n_0_1_13_wf : GatherDims.WF S1048576x3 S4194304x1 S4194304x3 [1] [0] [] [0] [] 1 ![1, 3]
  dot_S4194304x4_S4x20_S4194304x20_1_0_0_1_n_n_wf : DotDims.WF S4194304x4 S4x20 S4194304x20 [1] [0] [0] [1] [] []
  dot_S4194304x20_S20x3_S4194304x3_1_0_0_1_n_n_wf : DotDims.WF S4194304x20 S20x3 S4194304x3 [1] [0] [0] [1] [] []
  scatter_S1048576x3_S4194304x1_S4194304x3_1_0_0_1_wf : ScatterDims.WF S1048576x3 S4194304x1 S4194304x3 [1] [0] [0] 1
  scatter_S1048576_S4194304x1_S4194304_n_0_0_1_wf : ScatterDims.WF S1048576 S4194304x1 S4194304 [] [0] [0] 1
  dot_S1048576x6_S6x20_S1048576x20_1_0_0_1_n_n_wf : DotDims.WF S1048576x6 S6x20 S1048576x20 [1] [0] [0] [1] [] []
  dot_S1048576x20_S20x3_S1048576x3_1_0_0_1_n_n_wf : DotDims.WF S1048576x20 S20x3 S1048576x3 [1] [0] [0] [1] [] []

variable [Facts₀]

def gather_S1048576x3_S4194304x1_S4194304x3_1_0_n_n_0_1_13 : GatherDims S1048576x3 S4194304x1 S4194304x3 where
  offsetDims := [1]
  collapsedSliceDims := [0]
  operandBatchingDims := []
  startIndicesBatchingDims := []
  startIndexMap := [0]
  indexVectorDim := 1
  sliceSizes := ![1, 3]
  wf := gather_S1048576x3_S4194304x1_S4194304x3_1_0_n_n_0_1_13_wf
def dot_S4194304x4_S4x20_S4194304x20_1_0_0_1_n_n : DotDims S4194304x4 S4x20 S4194304x20 where
  lhsContracting := [1]
  rhsContracting := [0]
  lhsNonContracting := [0]
  rhsNonContracting := [1]
  lhsBatch := []
  rhsBatch := []
  wf := dot_S4194304x4_S4x20_S4194304x20_1_0_0_1_n_n_wf
def dot_S4194304x20_S20x3_S4194304x3_1_0_0_1_n_n : DotDims S4194304x20 S20x3 S4194304x3 where
  lhsContracting := [1]
  rhsContracting := [0]
  lhsNonContracting := [0]
  rhsNonContracting := [1]
  lhsBatch := []
  rhsBatch := []
  wf := dot_S4194304x20_S20x3_S4194304x3_1_0_0_1_n_n_wf
def scatter_S1048576x3_S4194304x1_S4194304x3_1_0_0_1 : ScatterDims S1048576x3 S4194304x1 S4194304x3 where
  updateWindowDims := [1]
  insertedWindowDims := [0]
  scatterDimsToOperandDims := [0]
  indexVectorDim := 1
  wf := scatter_S1048576x3_S4194304x1_S4194304x3_1_0_0_1_wf
def scatter_S1048576_S4194304x1_S4194304_n_0_0_1 : ScatterDims S1048576 S4194304x1 S4194304 where
  updateWindowDims := []
  insertedWindowDims := [0]
  scatterDimsToOperandDims := [0]
  indexVectorDim := 1
  wf := scatter_S1048576_S4194304x1_S4194304_n_0_0_1_wf
def dot_S1048576x6_S6x20_S1048576x20_1_0_0_1_n_n : DotDims S1048576x6 S6x20 S1048576x20 where
  lhsContracting := [1]
  rhsContracting := [0]
  lhsNonContracting := [0]
  rhsNonContracting := [1]
  lhsBatch := []
  rhsBatch := []
  wf := dot_S1048576x6_S6x20_S1048576x20_1_0_0_1_n_n_wf
def dot_S1048576x20_S20x3_S1048576x3_1_0_0_1_n_n : DotDims S1048576x20 S20x3 S1048576x3 where
  lhsContracting := [1]
  rhsContracting := [0]
  lhsNonContracting := [0]
  rhsNonContracting := [1]
  lhsBatch := []
  rhsBatch := []
  wf := dot_S1048576x20_S20x3_S1048576x3_1_0_0_1_n_n_wf

class Facts : Prop extends Facts₀ where

variable [Facts]
-- ==== Proof.Spec.lean ====
/-
  The computation both programs perform, written once, index by index, over the extended reals.

  A graph of 1048576 nodes (three features each) and 4194304 directed edges (one attribute each). Every edge
  reads its source node's features and its own attribute (four numbers), sends them through a two-layer
  perceptron relu(h·W + b)·W' + b' to three numbers, and adds them to its destination node; a node divides what
  it received by the number of edges that reached it (at least one), sends its own three features and that mean
  (six numbers) through a second perceptron, and divides the result by its Euclidean length.

  The source of an edge is its index word with a negative word moved up by the number of nodes, read signed
  and clamped to the node range. An edge reaches node n when its destination word, read signed, is n; an edge
  whose destination word names no node reaches none.
-/
import Idealize.ShloMosaic.PureOps.Ideal
import Idealize.ShloMosaic.Lib.ValueIdx

noncomputable section

namespace Cert.Spec

open Idealize.ShloMosaic Idealize.ShloMosaic.ValueIdx

/-- The number one as both programs write it: the same word on both sides, never evaluated. -/
def one : EReal := Ideal.ofBits .f32 0x3F800000#32

/-- relu(h·W + b)·W' + b' on one vector `h` of `K` features, twenty hidden units, three results. -/
def mlp {K : ℕ} (h : Fin K → EReal) (w : Fin K → Fin 20 → EReal) (b : Fin 20 → EReal)
    (w' : Fin 20 → Fin 3 → EReal) (b' : Fin 3 → EReal) (i : Fin 3) : EReal :=
  (∑ j : Fin 20, max ((∑ k : Fin K, h k * w k j) + b j) 0 * w' j i) + b' i

/-- A vector of three divided by the square root of the sum of its squares. -/
def unit (o : Fin 3 → EReal) (i : Fin 3) : EReal :=
  Ideal.div (o i) (Ideal.sqrt (∑ k : Fin 3, o k * o k))

/-- A node's six inputs: its own three features `xc`, then the three sums `sc 0 … sc 2` each divided by the
    count `sc 3`, the count raised to one where it is less. -/
def nodeInK (xc : Fin 3 → EReal) (sc : Fin 4 → EReal) (k : Fin 6) : EReal :=
  if h : k.val < 3 then xc ⟨k.val, h⟩ else Ideal.div (sc ⟨k.val - 3, by omega⟩) (max (sc 3) one)

/-- What the edge kernel writes for one edge from the edge's column `h` and the transposed weights: the
    perceptron's three results, then the number one. -/
def edgeK (h : Fin 4 → EReal) (wT : Fin 20 → Fin 4 → EReal) (b : Fin 20 → EReal)
    (wT' : Fin 3 → Fin 20 → EReal) (b' : Fin 3 → EReal) (i : Fin 4) : EReal :=
  if hi : i.val < 3 then mlp h (fun k j => wT j k) b (fun j i => wT' i j) b' ⟨i.val, hi⟩ else one

/-- What the node kernel writes for one node from the node's columns and the transposed weights. -/
def nodeK (xc : Fin 3 → EReal) (sc : Fin 4 → EReal) (wT : Fin 20 → Fin 6 → EReal) (b : Fin 20 → EReal)
    (wT' : Fin 3 → Fin 20 → EReal) (b' : Fin 3 → EReal) (i : Fin 3) : EReal :=
  unit (mlp (nodeInK xc sc) (fun k j => wT j k) b (fun j i => wT' i j) b') i

section Whole

variable (x : (⟨2, ![1048576, 3]⟩ : Shape).Idx → EReal) (ei : IVec ⟨2, ![2, 4194304]⟩ 32)
  (ea : (⟨2, ![4194304, 1]⟩ : Shape).Idx → EReal)
  (w1a : (⟨2, ![4, 20]⟩ : Shape).Idx → EReal) (b1a : (⟨1, ![20]⟩ : Shape).Idx → EReal)
  (w1b : (⟨2, ![20, 3]⟩ : Shape).Idx → EReal) (b1b : (⟨1, ![3]⟩ : Shape).Idx → EReal)
  (w2a : (⟨2, ![6, 20]⟩ : Shape).Idx → EReal) (b2a : (⟨1, ![20]⟩ : Shape).Idx → EReal)
  (w2b : (⟨2, ![20, 3]⟩ : Shape).Idx → EReal) (b2b : (⟨1, ![3]⟩ : Shape).Idx → EReal)

/-- Edge `e`'s source word, a negative word moved up by the number of nodes. -/
def srcWord (e : Fin 4194304) : BitVec 32 :=
  Scalar.select (IntOp.cmpi .slt (ei (ix2 (0 : Fin 2) e)) 0#32) (IntOp.addi (ei (ix2 (0 : Fin 2) e)) 1048576#32)
    (ei (ix2 (0 : Fin 2) e))

/-- Edge `e`'s source node: the source word read signed, clamped to the node range. -/
def src (e : Fin 4194304) : Fin 1048576 :=
  ⟨min (srcWord ei e).toInt.toNat (1048576 - 1), by omega⟩

/-- Edge `e`'s source word names a node: read signed it lies in [0, 1048576). -/
def SrcInRange (e : Fin 4194304) : Prop :=
  0 ≤ (srcWord ei e).toInt ∧ (srcWord ei e).toInt < 1048576

/-- Edge `e`'s four inputs: its source node's three features, then its own attribute. -/
def edgeIn (e : Fin 4194304) (k : Fin 4) : EReal :=
  if h : k.val < 3 then x (ix2 (src ei e) (⟨k.val, h⟩ : Fin 3)) else ea (ix2 e (0 : Fin 1))

/-- Edge `e`'s three results. -/
def edgeOut (e : Fin 4194304) (i : Fin 3) : EReal :=
  mlp (edgeIn x ei ea e) (fun k j => w1a (ix2 k j)) (fun j => b1a (ix1 j)) (fun j i => w1b (ix2 j i))
    (fun i => b1b (ix1 i)) i

/-- Edge `e` reaches node `n`: its destination word, read signed, is `n`. -/
def Lands (e : Fin 4194304) (n : Fin 1048576) : Prop :=
  (ei (ix2 (1 : Fin 2) e)).toInt = ((n.val : ℕ) : Int)

instance (e : Fin 4194304) (n : Fin 1048576) : Decidable (Lands ei e n) := by unfold Lands; infer_instance

/-- What node `n` receives: the sum of the results of the edges that reach it. -/
def nodeSum (n : Fin 1048576) (i : Fin 3) : EReal :=
  ∑ e : Fin 4194304, if Lands ei e n then edgeOut x ei ea w1a b1a w1b b1b e i else 0

/-- How many edges reach node `n`, each counted as the number one. -/
def nodeCnt (n : Fin 1048576) : EReal :=
  ∑ e : Fin 4194304, if Lands ei e n then one else 0

/-- Node `n`'s four received numbers: the three sums, then the count. -/
def nodeAcc (n : Fin 1048576) (k : Fin 4) : EReal :=
  if h : k.val < 3 then nodeSum x ei ea w1a b1a w1b b1b n ⟨k.val, h⟩ else nodeCnt ei n

/-- The result at node `n`, component `i`. -/
def result (n : Fin 1048576) (i : Fin 3) : EReal :=
  unit (mlp (nodeInK (fun k => x (ix2 n k)) (nodeAcc x ei ea w1a b1a w1b b1b n)) (fun k j => w2a (ix2 k j))
    (fun j => b2a (ix1 j)) (fun j i => w2b (ix2 j i)) (fun i => b2b (ix1 i))) i

end Whole

end Cert.Spec

end
-- ==== Proof.KArgs.lean ====
/-
  Names for the idealized kernel program's argument arrays, as functions of an index, on one device.
-/
import proofs.«408884_j82652350644752_3_alg».proof.Proof.Gen.KernelIdeal.Frame
import proofs.«408884_j82652350644752_3_alg».proof.Proof.Spec

noncomputable section

namespace Cert.KVal

open Idealize.ShloMosaic Idealize.ShloMosaic.TcCoe Idealize.SL.Sem Cert.KernelIdeal Cert.KernelIdeal.Gen

variable (m : (ℓ : Loc nD τ sig) → Buf (Elt Ideal) ℓ) (c : Dev nD)

/-- Node features, [1048576, 3]. -/
abbrev aX : S1048576x3.Idx → EReal := m ((c : Thread nD τ).loc main_arg0)
/-- Edge endpoints, [2, 4194304]: row 0 the sources, row 1 the destinations. -/
abbrev aEI : IVec S2x4194304 32 := m ((c : Thread nD τ).loc main_arg1)
/-- Edge attributes, [4194304, 1]. -/
abbrev aEA : S4194304x1.Idx → EReal := m ((c : Thread nD τ).loc main_arg2)
/-- First perceptron: weights [4, 20], bias [20], weights [20, 3], bias [3]. -/
abbrev aW1a : S4x20.Idx → EReal := m ((c : Thread nD τ).loc main_arg5)
abbrev aB1a : S20.Idx → EReal := m ((c : Thread nD τ).loc main_arg6)
abbrev aW1b : S20x3.Idx → EReal := m ((c : Thread nD τ).loc main_arg7)
abbrev aB1b : S3.Idx → EReal := m ((c : Thread nD τ).loc main_arg8)
/-- Second perceptron: weights [6, 20], bias [20], weights [20, 3], bias [3]. -/
abbrev aW2a : S6x20.Idx → EReal := m ((c : Thread nD τ).loc main_arg9)
abbrev aB2a : S20.Idx → EReal := m ((c : Thread nD τ).loc main_arg10)
abbrev aW2b : S20x3.Idx → EReal := m ((c : Thread nD τ).loc main_arg11)
abbrev aB2b : S3.Idx → EReal := m ((c : Thread nD τ).loc main_arg12)

/-- The edge region's [4, 4194304] output array after the region, entered at the contents `V`. -/
abbrev edgeArrOf (V : (c : Dev nD) → (b : Ref sig .tc) → Buf (Elt Ideal) ((c : Thread nD τ).loc b)) (c : Dev nD) :
    S4x4194304.Idx → EReal := (dat0 (F := Ideal) V c).arrAt 5 cfg0.N

/-- The node region's [3, 1048576] output array after the region, entered at the contents `V`. -/
abbrev nodeArrOf (V : (c : Dev nD) → (b : Ref sig .tc) → Buf (Elt Ideal) ((c : Thread nD τ).loc b)) (c : Dev nD) :
    S3x1048576.Idx → EReal := (dat1 (F := Ideal) V c).arrAt 6 cfg1.N

end Cert.KVal

end
-- ==== Proof.LibLayoutReads.lean ====
/-
  Layout operations of index vectors, read at one element given by its coordinates.

  A vector of n entries cut from position o on reads, at position j, the source at position o + j.  A
  matrix of a rows and b columns and the vector of its a·b entries laid row after row are the same
  numbers: entry (i, j) of the matrix is entry i·b + j of the vector, whichever of the two is the
  reshape of the other.  A vector made a column, by a reshape or by a broadcast along a new unit axis,
  reads at (i, 0) the vector's entry i.  Three vectors laid end to end read, at a position, the first
  vector there if the position is below its length, else the second at the position less the first's
  length if that is below the second's length, else the third at the position less both lengths.  Two
  matrices of equal width stacked read, at row r, the upper matrix's row r if r is below its height,
  else the lower matrix's row r less that height.
-/
import Idealize.ShloMosaic.Lib.ValueLayout

namespace Cert.Gcn.LayoutReads

open Idealize.ShloMosaic Idealize.ShloMosaic.ValueIdx

variable {α : Type}

/-! ## A vector cut from a position on -/

/-- A vector cut from `o` on reads, at `j`, the source at `k = o + j`. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## A matrix and the vector of its entries laid row after row -/

/-- The vector of a matrix's entries reads, at position `k = i·b + j`, the matrix at `(i, j)`. -/
theorem shapeCast_ab_n_apply {a b n : Nat} (x : (⟨2, ![a, b]⟩ : Shape).Idx → α)
    (h : (⟨2, ![a, b]⟩ : Shape).ShapeCasts ⟨1, ![n]⟩) (k : Fin n) (i : Fin a) (j : Fin b)
    (hk : k.val = i.val * b + j.val) :
    shapeCast ⟨1, ![n]⟩ x h (ix1 k) = x (ix2 i j) :=
  shapeCast_apply x h _ _ (by
    rw [Shape.rowMajor_val_two, Shape.rowMajor_val_one]
    show i.val * b + j.val = k.val
    exact hk.symm)

/-- A vector folded into rows of length `b` reads, at `(i, j)`, the vector at position `k = i·b + j`. -/
theorem shapeCast_n_ab_apply {a b n : Nat} (x : (⟨1, ![n]⟩ : Shape).Idx → α)
    (h : (⟨1, ![n]⟩ : Shape).ShapeCasts ⟨2, ![a, b]⟩) (i : Fin a) (j : Fin b) (k : Fin n)
    (hk : k.val = i.val * b + j.val) :
    shapeCast ⟨2, ![a, b]⟩ x h (ix2 i j) = x (ix1 k) :=
  shapeCast_apply x h _ _ (by
    rw [Shape.rowMajor_val_two, Shape.rowMajor_val_one]
    show k.val = i.val * b + j.val
    exact hk)

/-- A vector made a column by a reshape reads, at `(i, 0)`, the vector's entry `i`. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_n_ab_apply x h i u i (by have := u.isLt; omega)

/-- A vector made a column by a broadcast along a new unit axis reads, at `(i, 0)`, the vector's entry `i`. -/
theorem broadcastInDim_a_a1_apply {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x _ _ (fun ax => by
    match ax with
    | ⟨0, _⟩ =>
      show i.val = if a = 1 then 0 else i.val
      split
      · have := i.isLt; omega
      · rfl)

/-! ## Three vectors laid end to end -/

section Concat3
variable {n1 n2 n3 n : Nat} (x1 : (⟨1, ![n1]⟩ : Shape).Idx → α) (x2 : (⟨1, ![n2]⟩ : Shape).Idx → α)
  (x3 : (⟨1, ![n3]⟩ : Shape).Idx → α)
  (h : Shape.Concatenates [(⟨1, ![n1]⟩ : Shape), ⟨1, ![n2]⟩, ⟨1, ![n3]⟩] ⟨1, ![n]⟩ 0)

/-- Below the first length: the first vector at the same position. -/
theorem concat3_fst_apply (k : Fin n) (i : Fin n1) (hk : k.val = i.val) :
    concatenate ⟨1, ![n]⟩ 0 [⟨⟨1, ![n1]⟩, x1⟩, ⟨⟨1, ![n2]⟩, x2⟩, ⟨⟨1, ![n3]⟩, x3⟩] h (ix1 k) = x1 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    0 (by simp) ⟨1, ![n1]⟩ x1 rfl rfl 0 rfl (ix1 i)
    (fun b hb => absurd (Subsingleton.elim _ _) hb)
    (by show 0 + i.val = k.val; omega)

/-- From the first length on and below the first two: the second vector at the position less the first length. -/
theorem concat3_snd_apply (k : Fin n) (i : Fin n2) (hk : k.val = n1 + i.val) :
    concatenate ⟨1, ![n]⟩ 0 [⟨⟨1, ![n1]⟩, x1⟩, ⟨⟨1, ![n2]⟩, x2⟩, ⟨⟨1, ![n3]⟩, x3⟩] h (ix1 k) = x2 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    1 (by simp) ⟨1, ![n2]⟩ x2 rfl rfl n1 (by simp) (ix1 i)
    (fun b hb => absurd (Subsingleton.elim _ _) hb)
    (by show n1 + i.val = k.val; omega)

/-- From the first two lengths on: the third vector at the position less both. -/
theorem concat3_thd_apply (k : Fin n) (i : Fin n3) (hk : k.val = n1 + n2 + i.val) :
    concatenate ⟨1, ![n]⟩ 0 [⟨⟨1, ![n1]⟩, x1⟩, ⟨⟨1, ![n2]⟩, x2⟩, ⟨⟨1, ![n3]⟩, x3⟩] h (ix1 k) = x3 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    2 (by simp) ⟨1, ![n3]⟩ x3 rfl rfl (n1 + n2) (by simp) (ix1 i)
    (fun b hb => absurd (Subsingleton.elim _ _) hb)
    (by show n1 + n2 + i.val = k.val; omega)

end Concat3

/-! ## Two matrices of one width stacked -/

section Stack2
variable {m1 m2 m f : Nat} (x1 : (⟨2, ![m1, f]⟩ : Shape).Idx → α) (x2 : (⟨2, ![m2, f]⟩ : Shape).Idx → α)
  (h : Shape.Concatenates [(⟨2, ![m1, f]⟩ : Shape), ⟨2, ![m2, f]⟩] ⟨2, ![m, f]⟩ 0)

/-- A row below the upper height: the upper matrix's row. -/
theorem stack2_top_apply (r : Fin m) (c : Fin f) (i : Fin m1) (hr : r.val = i.val) :
    concatenate ⟨2, ![m, f]⟩ 0 [⟨⟨2, ![m1, f]⟩, x1⟩, ⟨⟨2, ![m2, f]⟩, x2⟩] h (ix2 r c) = x1 (ix2 i c) :=
  concatenate_pair_apply_left (0 : Fin 2) x1 x2 h (ix2 r c) rfl (ix2 i c) (fun b => by
    match b with
    | ⟨0, _⟩ => exact hr.symm
    | ⟨1, _⟩ => rfl)

/-- A row from the upper height on: the lower matrix's row, the upper height less. -/
theorem stack2_bot_apply (r : Fin m) (c : Fin f) (i : Fin m2) (hr : r.val = m1 + i.val) :
    concatenate ⟨2, ![m, f]⟩ 0 [⟨⟨2, ![m1, f]⟩, x1⟩, ⟨⟨2, ![m2, f]⟩, x2⟩] h (ix2 r c) = x2 (ix2 i c) :=
  concatenate_pair_apply_right (0 : Fin 2) x1 x2 h (ix2 r c) rfl rfl (ix2 i c) (fun b hb => by
    match b, hb with
    | ⟨0, _⟩, hb => exact absurd rfl hb
    | ⟨1, _⟩, _ => rfl)
    (by show i.val + m1 = r.val; omega)

end Stack2

end Cert.Gcn.LayoutReads
-- ==== Proof.PayEdge.lean ====
/-
  The edge kernel's stored value at one element: row i < 3 of column q is the perceptron's result i on
  column q of the input block, and row 3 is the number one.
-/
import proofs.«408884_j82652350644752_3_alg».proof.Proof.Gen.KernelIdeal.Skeleton
import proofs.«408884_j82652350644752_3_alg».proof.Proof.Spec
import Idealize.ShloMosaic.Lib.ValueIdx
import Idealize.ShloMosaic.Lib.Pipeline.Value
import Idealize.ShloMosaic.PureOps.Ideal.Laws
import proofs.«408884_j82652350644752_3_alg».proof.Proof.LibLayoutReads

noncomputable section

namespace Cert.PayEdge

open Idealize.ShloMosaic Idealize.ShloMosaic.ValueIdx Cert.KernelIdeal Cert.KernelIdeal.Gen

/-! ## The first product: twenty hidden units from four input features -/

private theorem lhs_hid_0 (i : S20x65536.Idx) (q : dot_S20x4_S4x65536_S20x65536_1_0_0_1_n_n.contr.Idx) :
    (dot_S20x4_S4x65536_S20x65536_1_0_0_1_n_n.lhsIdx i q 0).val = (i 0).val := by
  unfold DotDims.lhsIdx
  rw [dif_neg (show ¬(0 : Fin S20x4.rank) ∈ dot_S20x4_S4x65536_S20x65536_1_0_0_1_n_n.lhsBatch by decide), dif_pos (show (0 : Fin S20x4.rank) ∈ dot_S20x4_S4x65536_S20x65536_1_0_0_1_n_n.lhsNonContracting by decide)]
  rfl
private theorem lhs_hid_1 (i : S20x65536.Idx) (q : dot_S20x4_S4x65536_S20x65536_1_0_0_1_n_n.contr.Idx) :
    (dot_S20x4_S4x65536_S20x65536_1_0_0_1_n_n.lhsIdx i q 1).val = (q ⟨0, by decide⟩).val :=
  dot_S20x4_S4x65536_S20x65536_1_0_0_1_n_n.lhsIdx_val_of_single rfl i q
private theorem rhs_hid_0 (i : S20x65536.Idx) (q : dot_S20x4_S4x65536_S20x65536_1_0_0_1_n_n.contr.Idx) :
    (dot_S20x4_S4x65536_S20x65536_1_0_0_1_n_n.rhsIdx i q 0).val = (q ⟨0, by decide⟩).val :=
  dot_S20x4_S4x65536_S20x65536_1_0_0_1_n_n.rhsIdx_val_of_single rfl i q
private theorem rhs_hid_1 (i : S20x65536.Idx) (q : dot_S20x4_S4x65536_S20x65536_1_0_0_1_n_n.contr.Idx) :
    (dot_S20x4_S4x65536_S20x65536_1_0_0_1_n_n.rhsIdx i q 1).val = (i 1).val := by
  unfold DotDims.rhsIdx
  rw [dif_neg (show ¬(1 : Fin S4x65536.rank) ∈ dot_S20x4_S4x65536_S20x65536_1_0_0_1_n_n.rhsBatch by decide), dif_pos (show (1 : Fin S4x65536.rank) ∈ dot_S20x4_S4x65536_S20x65536_1_0_0_1_n_n.rhsNonContracting by decide)]
  rfl

/-- Hidden unit j of column q, before the bias: the sum over the four features k of weight (j, k) times
    input (k, q). -/
private theorem hid_apply (w : FVec Ideal S20x4 .bf16) (h : FVec Ideal S4x65536 .bf16) (j : Fin 20) (q : Fin 65536) :
    matmul dot_S20x4_S4x65536_S20x65536_1_0_0_1_n_n none w h (constant (F := Ideal) S20x65536 .f32 0x00000000#32) (ix2 j q)
      = ∑ k : Fin 4, w (ix2 j k) * h (ix2 k q) := by
  simp only [matmul]
  rw [Ideal.matmul_constant_zero_apply, ← Equiv.sum_comp (ValueIdx.contrEquiv1 dot_S20x4_S4x65536_S20x65536_1_0_0_1_n_n 4 rfl rfl).symm]
  refine Finset.sum_congr rfl fun k _ => ?_
  have hk := ValueIdx.contrEquiv1_symm_val dot_S20x4_S4x65536_S20x65536_1_0_0_1_n_n 4 rfl rfl k
  have el : dot_S20x4_S4x65536_S20x65536_1_0_0_1_n_n.lhsIdx (ix2 j q) ((ValueIdx.contrEquiv1 dot_S20x4_S4x65536_S20x65536_1_0_0_1_n_n 4 rfl rfl).symm k) = ix2 j k := funext fun a => Fin.ext (by
    match a with
    | ⟨0, _⟩ => exact lhs_hid_0 _ _
    | ⟨1, _⟩ => exact (lhs_hid_1 _ _).trans hk)
  have er : dot_S20x4_S4x65536_S20x65536_1_0_0_1_n_n.rhsIdx (ix2 j q) ((ValueIdx.contrEquiv1 dot_S20x4_S4x65536_S20x65536_1_0_0_1_n_n 4 rfl rfl).symm k) = ix2 k q := funext fun a => Fin.ext (by
    match a with
    | ⟨0, _⟩ => exact (rhs_hid_0 _ _).trans hk
    | ⟨1, _⟩ => exact rhs_hid_1 _ _)
  rw [el, er]

/-! ## The second product: three results from twenty hidden units -/

private theorem lhs_res_0 (i : S3x65536.Idx) (q : dot_S3x20_S20x65536_S3x65536_1_0_0_1_n_n.contr.Idx) :
    (dot_S3x20_S20x65536_S3x65536_1_0_0_1_n_n.lhsIdx i q 0).val = (i 0).val := by
  unfold DotDims.lhsIdx
  rw [dif_neg (show ¬(0 : Fin S3x20.rank) ∈ dot_S3x20_S20x65536_S3x65536_1_0_0_1_n_n.lhsBatch by decide), dif_pos (show (0 : Fin S3x20.rank) ∈ dot_S3x20_S20x65536_S3x65536_1_0_0_1_n_n.lhsNonContracting by decide)]
  rfl
private theorem lhs_res_1 (i : S3x65536.Idx) (q : dot_S3x20_S20x65536_S3x65536_1_0_0_1_n_n.contr.Idx) :
    (dot_S3x20_S20x65536_S3x65536_1_0_0_1_n_n.lhsIdx i q 1).val = (q ⟨0, by decide⟩).val :=
  dot_S3x20_S20x65536_S3x65536_1_0_0_1_n_n.lhsIdx_val_of_single rfl i q
private theorem rhs_res_0 (i : S3x65536.Idx) (q : dot_S3x20_S20x65536_S3x65536_1_0_0_1_n_n.contr.Idx) :
    (dot_S3x20_S20x65536_S3x65536_1_0_0_1_n_n.rhsIdx i q 0).val = (q ⟨0, by decide⟩).val :=
  dot_S3x20_S20x65536_S3x65536_1_0_0_1_n_n.rhsIdx_val_of_single rfl i q
private theorem rhs_res_1 (i : S3x65536.Idx) (q : dot_S3x20_S20x65536_S3x65536_1_0_0_1_n_n.contr.Idx) :
    (dot_S3x20_S20x65536_S3x65536_1_0_0_1_n_n.rhsIdx i q 1).val = (i 1).val := by
  unfold DotDims.rhsIdx
  rw [dif_neg (show ¬(1 : Fin S20x65536.rank) ∈ dot_S3x20_S20x65536_S3x65536_1_0_0_1_n_n.rhsBatch by decide), dif_pos (show (1 : Fin S20x65536.rank) ∈ dot_S3x20_S20x65536_S3x65536_1_0_0_1_n_n.rhsNonContracting by decide)]
  rfl

/-- Result i of column q, before the bias: the sum over the twenty hidden units j of weight (i, j) times
    hidden value (j, q). -/
private theorem res_apply (w : FVec Ideal S3x20 .bf16) (g : FVec Ideal S20x65536 .bf16) (i : Fin 3) (q : Fin 65536) :
    matmul dot_S3x20_S20x65536_S3x65536_1_0_0_1_n_n none w g (constant (F := Ideal) S3x65536 .f32 0x00000000#32) (ix2 i q)
      = ∑ j : Fin 20, w (ix2 i j) * g (ix2 j q) := by
  simp only [matmul]
  rw [Ideal.matmul_constant_zero_apply, ← Equiv.sum_comp (ValueIdx.contrEquiv1 dot_S3x20_S20x65536_S3x65536_1_0_0_1_n_n 20 rfl rfl).symm]
  refine Finset.sum_congr rfl fun k _ => ?_
  have hk := ValueIdx.contrEquiv1_symm_val dot_S3x20_S20x65536_S3x65536_1_0_0_1_n_n 20 rfl rfl k
  have el : dot_S3x20_S20x65536_S3x65536_1_0_0_1_n_n.lhsIdx (ix2 i q) ((ValueIdx.contrEquiv1 dot_S3x20_S20x65536_S3x65536_1_0_0_1_n_n 20 rfl rfl).symm k) = ix2 i k := funext fun a => Fin.ext (by
    match a with
    | ⟨0, _⟩ => exact lhs_res_0 _ _
    | ⟨1, _⟩ => exact (lhs_res_1 _ _).trans hk)
  have er : dot_S3x20_S20x65536_S3x65536_1_0_0_1_n_n.rhsIdx (ix2 i q) ((ValueIdx.contrEquiv1 dot_S3x20_S20x65536_S3x65536_1_0_0_1_n_n 20 rfl rfl).symm k) = ix2 k q := funext fun a => Fin.ext (by
    match a with
    | ⟨0, _⟩ => exact (rhs_res_0 _ _).trans hk
    | ⟨1, _⟩ => exact rhs_res_1 _ _)
  rw [el, er]

/-! ## A column spread along the lanes -/

/-- A column of a rows spread to b columns reads, at (p, c), the column's entry p. -/
private theorem column_spread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stored value at one element -/

theorem pay0_apply (x0 : Vec Ideal S4x65536 .f32) (x1 : Vec Ideal S20x4 .f32) (x2 : Vec Ideal S20x1 .f32)
    (x3 : Vec Ideal S3x20 .f32) (x4 : Vec Ideal S3x1 .f32) (i : Fin 4) (q : Fin 65536) :
    k0_pay1 (F := Ideal) x0 x1 x2 x3 x4 (ix2 i q)
      = Spec.edgeK (fun k => x0 (ix2 k q)) (fun j k => x1 (ix2 j k)) (fun j => x2 (ix2 j (0 : Fin 1)))
          (fun i j => x3 (ix2 i j)) (fun i => x4 (ix2 i (0 : Fin 1))) i := by
  unfold k0_pay1
  simp only [shapeCast_self]
  by_cases hi : i.val < 3
  · -- rows 0, 1, 2: the upper block, the perceptron's result i
    refine (Cert.Gcn.LayoutReads.stack2_top_apply _ _ _ i q ⟨i.val, hi⟩ rfl).trans ?_
    refine (addf_apply _ _ _).trans ?_
    unfold Spec.edgeK Spec.mlp
    rw [dif_pos hi]
    refine congrArg₂ (· + ·) ?_ ?_
    · refine (res_apply _ _ ⟨i.val, hi⟩ q).trans ?_
      refine Finset.sum_congr rfl fun j _ => ?_
      -- the kernel writes weight times hidden value, the specification hidden value times weight
      refine (mul_comm _ _).trans ?_
      refine congrArg₂ (· * ·) ?_ rfl
      -- the hidden value: the larger of (sum + bias) and zero
      refine (maximumf_apply _ _ _).trans ?_
      refine congrArg₂ max ?_ Ideal.ofBits_zero_f32
      refine (addf_apply _ _ _).trans ?_
      refine congrArg₂ (· + ·) ?_ ?_
      · refine (hid_apply _ _ j q).trans ?_
        refine Finset.sum_congr rfl fun k _ => ?_
        exact mul_comm _ _
      · exact column_spread_apply _ _ j q
    · exact column_spread_apply _ _ ⟨i.val, hi⟩ q
  · -- row 3: the lower block, the word of the number one
    refine (Cert.Gcn.LayoutReads.stack2_bot_apply _ _ _ i q (0 : Fin 1) (by have := i.isLt; show i.val = 3 + 0; omega)).trans ?_
    unfold Spec.edgeK
    rw [dif_neg hi]
    rfl

end Cert.PayEdge

end
-- ==== Proof.KEdgeArr.lean ====
/-
  The edge region's output array after the region, element by element, from the region's input arrays as it
  finds them: column e of the [4, 4194304] output depends on column e of the input and on the four small arrays.
-/
import proofs.«408884_j82652350644752_3_alg».proof.Proof.KArgs
import proofs.«408884_j82652350644752_3_alg».proof.Proof.PayEdge
import Idealize.ShloMosaic.Lib.ValueIdx
import Idealize.ShloMosaic.Lib.Pipeline.Value

noncomputable section

namespace Cert.KVal

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The offsets `![0, 0]` are the zero offsets. -/
private theorem zero_off : (![0, 0] : Fin 2 → Nat) = fun _ => 0 := funext fun a => by fin_cases a <;> rfl

/-- The whole [4, 4194304] output as one function of the five input arrays: at row i of column e, the edge kernel's
    value i on column e of the [4, 4194304] input and on the four small arrays (the two layers' transposed weights
    and their biases). -/
private abbrev edgeG (a0 : S4x4194304.Idx → EReal) (a1 : S20x4.Idx → EReal) (a2 : S20x1.Idx → EReal)
    (a3 : S3x20.Idx → EReal) (a4 : S3x1.Idx → EReal) : S4x4194304.Idx → EReal :=
  fun p => Spec.edgeK (fun k => a0 (ix2 k (p 1 : Fin 4194304))) (fun j k => a1 (ix2 j k))
    (fun j => a2 (ix2 j (0 : Fin 1))) (fun i j => a3 (ix2 i j)) (fun i => a4 (ix2 i (0 : Fin 1))) (p 0 : Fin 4)

/-- The block indices over the 64 grid points: the column-blocked input and the output sit at block (0, t) at point t,
    each small array at block (0, 0) at every point. -/
private theorem blk_index : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The input's block at point t is columns 65536·t … 65536·t + 65535 of the [4, 4194304] input: element y of the block
    is the array's element k whenever k has y's row and column 65536·t + y's column. -/
private theorem cols_blk (c : Dev nD) (t : Fin cfg0.N) (y : S4x65536.Idx) (k : S4x4194304.Idx)
    (h0 : (k 0).val = (y 0).val) (h1 : (k 1).val = t.val * 65536 + (y 1).val) :
    (iblk0 V c 0 t : Vec Ideal S4x65536 .f32) y = (V c main_v7 : S4x4194304.Idx → EReal) k := by
  obtain ⟨e0, e1, -⟩ := blk_index t
  show V c main_v7 (((cfg0.win 0).blk t).view.emb y) = V c main_v7 k
  refine congrArg _ ?_
  funext a; apply Fin.ext
  match a with
  | ⟨0, _⟩ => show win0_0.index t (0 : Fin 2) * 4 + 1 * (y 0).val = (k 0).val; omega
  | ⟨1, _⟩ => show win0_0.index t (1 : Fin 2) * 65536 + 1 * (y 1).val = (k 1).val; omega

/-- The first layer's transposed weights [20, 4]: the block is the whole array at every point. -/
private theorem wA_blk (c : Dev nD) (t : Fin cfg0.N) (y : S20x4.Idx) :
    (iblk0 V c 1 t : Vec Ideal S20x4 .f32) y = (V c main_v8 : S20x4.Idx → EReal) y := by
  obtain ⟨-, -, e0, e1, -⟩ := blk_index t
  show V c main_v8 (((cfg0.win 1).blk t).view.emb y) = V c main_v8 y
  refine congrArg _ ?_
  funext a; apply Fin.ext
  match a with
  | ⟨0, _⟩ => show win0_1.index t (0 : Fin 2) * 20 + 1 * (y 0).val = (y 0).val; omega
  | ⟨1, _⟩ => show win0_1.index t (1 : Fin 2) * 4 + 1 * (y 1).val = (y 1).val; omega

/-- The first layer's bias [20, 1]: the block is the whole array at every point. -/
private theorem bA_blk (c : Dev nD) (t : Fin cfg0.N) (y : S20x1.Idx) :
    (iblk0 V c 2 t : Vec Ideal S20x1 .f32) y = (V c main_v9 : S20x1.Idx → EReal) y := by
  obtain ⟨-, -, -, -, e0, e1, -⟩ := blk_index t
  show V c main_v9 (((cfg0.win 2).blk t).view.emb y) = V c main_v9 y
  refine congrArg _ ?_
  funext a; apply Fin.ext
  match a with
  | ⟨0, _⟩ => show win0_2.index t (0 : Fin 2) * 20 + 1 * (y 0).val = (y 0).val; omega
  | ⟨1, _⟩ => show win0_2.index t (1 : Fin 2) * 1 + 1 * (y 1).val = (y 1).val; omega

/-- The second layer's transposed weights [3, 20]: the block is the whole array at every point. -/
private theorem wB_blk (c : Dev nD) (t : Fin cfg0.N) (y : S3x20.Idx) :
    (iblk0 V c 3 t : Vec Ideal S3x20 .f32) y = (V c main_v10 : S3x20.Idx → EReal) y := by
  obtain ⟨-, -, -, -, -, -, e0, e1, -⟩ := blk_index t
  show V c main_v10 (((cfg0.win 3).blk t).view.emb y) = V c main_v10 y
  refine congrArg _ ?_
  funext a; apply Fin.ext
  match a with
  | ⟨0, _⟩ => show win0_3.index t (0 : Fin 2) * 3 + 1 * (y 0).val = (y 0).val; omega
  | ⟨1, _⟩ => show win0_3.index t (1 : Fin 2) * 20 + 1 * (y 1).val = (y 1).val; omega

/-- The second layer's bias [3, 1]: the block is the whole array at every point. -/
private theorem bB_blk (c : Dev nD) (t : Fin cfg0.N) (y : S3x1.Idx) :
    (iblk0 V c 4 t : Vec Ideal S3x1 .f32) y = (V c main_v11 : S3x1.Idx → EReal) y := by
  obtain ⟨-, -, -, -, -, -, -, -, e0, e1, -⟩ := blk_index t
  show V c main_v11 (((cfg0.win 4).blk t).view.emb y) = V c main_v11 y
  refine congrArg _ ?_
  funext a; apply Fin.ext
  match a with
  | ⟨0, _⟩ => show win0_4.index t (0 : Fin 2) * 3 + 1 * (y 0).val = (y 0).val; omega
  | ⟨1, _⟩ => show win0_4.index t (1 : Fin 2) * 1 + 1 * (y 1).val = (y 1).val; omega

/-- Where element y of the output's block at point t sits in the [4, 4194304] output: y's row, column 65536·t + y's column. -/
private theorem out_emb (t : Fin cfg0.N) (y : S4x65536.Idx) :
    ((((cfg0.win 5).blk t).view.emb y : S4x4194304.Idx) 0).val = (y 0).val
    ∧ ((((cfg0.win 5).blk t).view.emb y : S4x4194304.Idx) 1).val = t.val * 65536 + (y 1).val := by
  obtain ⟨-, -, -, -, -, -, -, -, -, -, e0, e1⟩ := blk_index t
  constructor
  · show win0_5.index t (0 : Fin 2) * 4 + 1 * (y 0).val = (y 0).val; omega
  · show win0_5.index t (1 : Fin 2) * 65536 + 1 * (y 1).val = t.val * 65536 + (y 1).val; omega

/-- The edge kernel's value is a function of its six arguments. -/
private theorem edgeK_congr {h h' : Fin 4 → EReal} {w w' : Fin 20 → Fin 4 → EReal} {b b' : Fin 20 → EReal}
    {u u' : Fin 3 → Fin 20 → EReal} {d d' : Fin 3 → EReal} {i i' : Fin 4}
    (e0 : h = h') (e1 : w = w') (e2 : b = b') (e3 : u = u') (e4 : d = d') (e5 : i = i') :
    Spec.edgeK h w b u d i = Spec.edgeK h' w' b' u' d' i' := by
  subst e0 e1 e2 e3 e4 e5; rfl

/-- What the body stores at element y of the block at point t is the whole-array function at y's place in the array:
    the stored value reads column y of the input's block, which is the array's column 65536·t + y, and the small arrays whole. -/
private theorem pay_blk (c : Dev nD) (t : Fin cfg0.N) (y : S4x65536.Idx) :
    k0_pay1 (F := Ideal) (iblk0 V c 0 t) (iblk0 V c 1 t) (iblk0 V c 2 t) (iblk0 V c 3 t) (iblk0 V c 4 t) y
      = edgeG (V c main_v7) (V c main_v8) (V c main_v9) (V c main_v10) (V c main_v11)
          (((cfg0.win 5).blk t).view.emb y) := by
  obtain ⟨i, q, rfl⟩ : ∃ (i : Fin 4) (q : Fin 65536), y = ix2 i q := ⟨y 0, y 1, eq_ix2 y⟩
  obtain ⟨o0, o1⟩ := out_emb t (ix2 i q)
  refine (Cert.PayEdge.pay0_apply (iblk0 V c 0 t) (iblk0 V c 1 t) (iblk0 V c 2 t) (iblk0 V c 3 t) (iblk0 V c 4 t) i q).trans ?_
  exact edgeK_congr (funext fun k => cols_blk V c t (ix2 k q) (ix2 k _) rfl o1)
    (funext fun j => funext fun k => wA_blk V c t (ix2 j k))
    (funext fun j => bA_blk V c t (ix2 j (0 : Fin 1)))
    (funext fun a => funext fun j => wB_blk V c t (ix2 a j))
    (funext fun a => bB_blk V c t (ix2 a (0 : Fin 1))) (Fin.ext o0.symm)

/-- What point t writes back is block t of the whole-array function: the body's one store covers its buffer, and its
    loads read the input blocks whole. -/
private theorem edge_flushed (c : Dev nD) (t : Fin cfg0.N) :
    (dat0 V c).flushed 5 t = ((cfg0.win 5).blk t).view.read (Elt Ideal)
      (edgeG (V c main_v7) (V c main_v8) (V c main_v9) (V c main_v10) (V c main_v11)) := by
  show (cfg0.win 5).cut (grid0.coords t) ((dat0 V c).after 5 t) = _
  rw [after0_5]
  unfold out0_5
  rw [View.canon_unit_zero zero_off]
  simp only [View.ld_unit_zero (S := S4x65536) zero_off, View.ld_unit_zero (S := S20x4) zero_off,
    View.ld_unit_zero (S := S20x1) zero_off, View.ld_unit_zero (S := S3x20) zero_off,
    View.ld_unit_zero (S := S3x1) zero_off]
  funext y
  exact pay_blk V c t y

/-- An index of the output array is in point t's block iff each coordinate is in the block's range on its axis. -/
private theorem mem_blk (t : Fin cfg0.N) (p : S4x4194304.Idx) :
    p ∈ ((cfg0.win 5).blk t).view.set ↔ ∀ a : Fin 2, win0_5.index t a * S4x65536.size a ≤ (p a).val
      ∧ (p a).val < win0_5.index t a * S4x65536.size a + S4x65536.size a := by
  show p ∈ ((View.whole main_v12).slice (win0_5.rect t)).set ↔ _
  rw [View.set_slice_whole, Rect.mem_set_unit]
  exact Iff.rfl

/-- The 64 blocks of 65536 columns tile the 4194304 columns: column r lies in the block of point r / 65536. -/
private theorem cover (p : S4x4194304.Idx) :
    ∃ t : Fin cfg0.N, (cfg0.win 5).flush t = true ∧ p ∈ ((cfg0.win 5).blk t).view.set := by
  have hp0 : (p 0).val < 4 := (p 0).isLt
  have hp1 : (p 1).val < 4194304 := (p 1).isLt
  have hN : cfg0.N = 64 := N_0
  let t : Fin cfg0.N := ⟨(p 1).val / 65536, by rw [hN]; omega⟩
  obtain ⟨-, -, -, -, -, -, -, -, -, -, e0, e1⟩ := blk_index t
  have e1' : win0_5.index t (1 : Fin 2) = (p 1).val / 65536 := e1
  refine ⟨t, flush0_5 t, ?_⟩
  rw [mem_blk]
  intro a
  match a with
  | ⟨0, _⟩ => show win0_5.index t (0 : Fin 2) * 4 ≤ (p 0).val ∧ (p 0).val < win0_5.index t (0 : Fin 2) * 4 + 4; omega
  | ⟨1, _⟩ => show win0_5.index t (1 : Fin 2) * 65536 ≤ (p 1).val ∧ (p 1).val < win0_5.index t (1 : Fin 2) * 65536 + 65536; omega

/-- The output array after the region is the whole-array function: every point writes its block of it, and the blocks
    cover the array. -/
private theorem edge_final (c : Dev nD) :
    (dat0 V c).arrAt 5 cfg0.N = edgeG (V c main_v7) (V c main_v8) (V c main_v9) (V c main_v10) (V c main_v11) :=
  (dat0 V c).arrAt_eq_of_cover 5 (edgeG (V c main_v7) (V c main_v8) (V c main_v9) (V c main_v10) (V c main_v11))
    (fun t _ => edge_flushed V c t) cover

theorem edge_arr (c : Dev nD) (i : Fin 4) (e : Fin 4194304) :
    edgeArrOf V c (ix2 i e)
      = Spec.edgeK (fun k => (V c main_v7 : S4x4194304.Idx → EReal) (ix2 k e))
          (fun j k => (V c main_v8 : S20x4.Idx → EReal) (ix2 j k))
          (fun j => (V c main_v9 : S20x1.Idx → EReal) (ix2 j (0 : Fin 1)))
          (fun i j => (V c main_v10 : S3x20.Idx → EReal) (ix2 i j))
          (fun i => (V c main_v11 : S3x1.Idx → EReal) (ix2 i (0 : Fin 1))) i := by
  exact congrFun (edge_final V c) (ix2 i e)

end Cert.KVal

end
-- ==== Proof.PayNode.lean ====
/-
  The node kernel's stored value at one element: row i of column q is component i of the normalised
  perceptron result on column q of the two input blocks.
-/
import proofs.«408884_j82652350644752_3_alg».proof.Proof.Gen.KernelIdeal.Skeleton
import proofs.«408884_j82652350644752_3_alg».proof.Proof.Spec
import Idealize.ShloMosaic.Lib.ValueIdx
import Idealize.ShloMosaic.Lib.Pipeline.Value
import Idealize.ShloMosaic.PureOps.Ideal.Laws
import Idealize.ShloMosaic.Lib.ValueLayout
import proofs.«408884_j82652350644752_3_alg».proof.Proof.LibLayoutReads

noncomputable section

namespace Cert.PayNode

open Idealize.ShloMosaic Idealize.ShloMosaic.ValueIdx Cert.KernelIdeal Cert.KernelIdeal.Gen

/-! ## Layout reads -/

/-- A column of `a` entries spread over `b` columns reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products of matrices, read at one element -/

private theorem lhs_dot1_0 (i : S20x65536.Idx) (q : dot_S20x6_S6x65536_S20x65536_1_0_0_1_n_n.contr.Idx) :
    (dot_S20x6_S6x65536_S20x65536_1_0_0_1_n_n.lhsIdx i q 0).val = (i 0).val := by
  unfold DotDims.lhsIdx
  rw [dif_neg (show ¬(0 : Fin S20x6.rank) ∈ dot_S20x6_S6x65536_S20x65536_1_0_0_1_n_n.lhsBatch by decide), dif_pos (show (0 : Fin S20x6.rank) ∈ dot_S20x6_S6x65536_S20x65536_1_0_0_1_n_n.lhsNonContracting by decide)]
  rfl
private theorem lhs_dot1_1 (i : S20x65536.Idx) (q : dot_S20x6_S6x65536_S20x65536_1_0_0_1_n_n.contr.Idx) :
    (dot_S20x6_S6x65536_S20x65536_1_0_0_1_n_n.lhsIdx i q 1).val = (q ⟨0, by decide⟩).val :=
  dot_S20x6_S6x65536_S20x65536_1_0_0_1_n_n.lhsIdx_val_of_single rfl i q
private theorem rhs_dot1_0 (i : S20x65536.Idx) (q : dot_S20x6_S6x65536_S20x65536_1_0_0_1_n_n.contr.Idx) :
    (dot_S20x6_S6x65536_S20x65536_1_0_0_1_n_n.rhsIdx i q 0).val = (q ⟨0, by decide⟩).val :=
  dot_S20x6_S6x65536_S20x65536_1_0_0_1_n_n.rhsIdx_val_of_single rfl i q
private theorem rhs_dot1_1 (i : S20x65536.Idx) (q : dot_S20x6_S6x65536_S20x65536_1_0_0_1_n_n.contr.Idx) :
    (dot_S20x6_S6x65536_S20x65536_1_0_0_1_n_n.rhsIdx i q 1).val = (i 1).val := by
  unfold DotDims.rhsIdx
  rw [dif_neg (show ¬(1 : Fin S6x65536.rank) ∈ dot_S20x6_S6x65536_S20x65536_1_0_0_1_n_n.rhsBatch by decide), dif_pos (show (1 : Fin S6x65536.rank) ∈ dot_S20x6_S6x65536_S20x65536_1_0_0_1_n_n.rhsNonContracting by decide)]
  rfl

/-- The first product into a zero accumulator: entry `(j, q)` is the sum over the six inputs `k` of weight `(j, k)`
    times input `(k, q)`. -/
private theorem matmul1_apply (w : FVec Ideal S20x6 .bf16) (h : FVec Ideal S6x65536 .bf16) (j : Fin 20) (q : Fin 65536) :
    matmul dot_S20x6_S6x65536_S20x65536_1_0_0_1_n_n none w h (constant (F := Ideal) S20x65536 .f32 0x00000000#32) (ix2 j q)
      = ∑ k : Fin 6, w (ix2 j k) * h (ix2 k q) := by
  simp only [matmul]
  rw [Ideal.matmul_constant_zero_apply, ← Equiv.sum_comp (contrEquiv1 dot_S20x6_S6x65536_S20x65536_1_0_0_1_n_n 6 rfl rfl).symm]
  refine Finset.sum_congr rfl fun k _ => ?_
  have hk := contrEquiv1_symm_val dot_S20x6_S6x65536_S20x65536_1_0_0_1_n_n 6 rfl rfl k
  have el : dot_S20x6_S6x65536_S20x65536_1_0_0_1_n_n.lhsIdx (ix2 j q) ((contrEquiv1 dot_S20x6_S6x65536_S20x65536_1_0_0_1_n_n 6 rfl rfl).symm k) = ix2 j k := funext fun a => Fin.ext (by
    match a with
    | ⟨0, _⟩ => exact lhs_dot1_0 _ _
    | ⟨1, _⟩ => exact (lhs_dot1_1 _ _).trans hk)
  have er : dot_S20x6_S6x65536_S20x65536_1_0_0_1_n_n.rhsIdx (ix2 j q) ((contrEquiv1 dot_S20x6_S6x65536_S20x65536_1_0_0_1_n_n 6 rfl rfl).symm k) = ix2 k q := funext fun a => Fin.ext (by
    match a with
    | ⟨0, _⟩ => exact (rhs_dot1_0 _ _).trans hk
    | ⟨1, _⟩ => exact rhs_dot1_1 _ _)
  rw [el, er]

private theorem lhs_dot2_0 (i : S3x65536.Idx) (q : dot_S3x20_S20x65536_S3x65536_1_0_0_1_n_n.contr.Idx) :
    (dot_S3x20_S20x65536_S3x65536_1_0_0_1_n_n.lhsIdx i q 0).val = (i 0).val := by
  unfold DotDims.lhsIdx
  rw [dif_neg (show ¬(0 : Fin S3x20.rank) ∈ dot_S3x20_S20x65536_S3x65536_1_0_0_1_n_n.lhsBatch by decide), dif_pos (show (0 : Fin S3x20.rank) ∈ dot_S3x20_S20x65536_S3x65536_1_0_0_1_n_n.lhsNonContracting by decide)]
  rfl
private theorem lhs_dot2_1 (i : S3x65536.Idx) (q : dot_S3x20_S20x65536_S3x65536_1_0_0_1_n_n.contr.Idx) :
    (dot_S3x20_S20x65536_S3x65536_1_0_0_1_n_n.lhsIdx i q 1).val = (q ⟨0, by decide⟩).val :=
  dot_S3x20_S20x65536_S3x65536_1_0_0_1_n_n.lhsIdx_val_of_single rfl i q
private theorem rhs_dot2_0 (i : S3x65536.Idx) (q : dot_S3x20_S20x65536_S3x65536_1_0_0_1_n_n.contr.Idx) :
    (dot_S3x20_S20x65536_S3x65536_1_0_0_1_n_n.rhsIdx i q 0).val = (q ⟨0, by decide⟩).val :=
  dot_S3x20_S20x65536_S3x65536_1_0_0_1_n_n.rhsIdx_val_of_single rfl i q
private theorem rhs_dot2_1 (i : S3x65536.Idx) (q : dot_S3x20_S20x65536_S3x65536_1_0_0_1_n_n.contr.Idx) :
    (dot_S3x20_S20x65536_S3x65536_1_0_0_1_n_n.rhsIdx i q 1).val = (i 1).val := by
  unfold DotDims.rhsIdx
  rw [dif_neg (show ¬(1 : Fin S20x65536.rank) ∈ dot_S3x20_S20x65536_S3x65536_1_0_0_1_n_n.rhsBatch by decide), dif_pos (show (1 : Fin S20x65536.rank) ∈ dot_S3x20_S20x65536_S3x65536_1_0_0_1_n_n.rhsNonContracting by decide)]
  rfl

/-- The second product into a zero accumulator: entry `(i, q)` is the sum over the twenty hidden units `j` of weight
    `(i, j)` times hidden value `(j, q)`. -/
private theorem matmul2_apply (w : FVec Ideal S3x20 .bf16) (h : FVec Ideal S20x65536 .bf16) (i : Fin 3) (q : Fin 65536) :
    matmul dot_S3x20_S20x65536_S3x65536_1_0_0_1_n_n none w h (constant (F := Ideal) S3x65536 .f32 0x00000000#32) (ix2 i q)
      = ∑ j : Fin 20, w (ix2 i j) * h (ix2 j q) := by
  simp only [matmul]
  rw [Ideal.matmul_constant_zero_apply, ← Equiv.sum_comp (contrEquiv1 dot_S3x20_S20x65536_S3x65536_1_0_0_1_n_n 20 rfl rfl).symm]
  refine Finset.sum_congr rfl fun k _ => ?_
  have hk := contrEquiv1_symm_val dot_S3x20_S20x65536_S3x65536_1_0_0_1_n_n 20 rfl rfl k
  have el : dot_S3x20_S20x65536_S3x65536_1_0_0_1_n_n.lhsIdx (ix2 i q) ((contrEquiv1 dot_S3x20_S20x65536_S3x65536_1_0_0_1_n_n 20 rfl rfl).symm k) = ix2 i k := funext fun a => Fin.ext (by
    match a with
    | ⟨0, _⟩ => exact lhs_dot2_0 _ _
    | ⟨1, _⟩ => exact (lhs_dot2_1 _ _).trans hk)
  have er : dot_S3x20_S20x65536_S3x65536_1_0_0_1_n_n.rhsIdx (ix2 i q) ((contrEquiv1 dot_S3x20_S20x65536_S3x65536_1_0_0_1_n_n 20 rfl rfl).symm k) = ix2 k q := funext fun a => Fin.ext (by
    match a with
    | ⟨0, _⟩ => exact (rhs_dot2_0 _ _).trans hk
    | ⟨1, _⟩ => exact rhs_dot2_1 _ _)
  rw [el, er]

/-! ## The sum over the three rows -/

/-- The sum over the rows of a three-row block reads, at column `q`, the sum of the three entries of that column. -/
private theorem rowsum_apply (src : FVec Ideal S3x65536 .f32) (hφ : FKind.Formats .f32)
    (hacc : (0x00000000#32 : BitVec 32) = FKind.add.neutral .f32 hφ) (q : Fin 65536) :
    multiReduction (F := Ideal) .add [0] S65536 src 0x00000000#32 reduces_S3x65536_S65536 hφ hacc (ix1 q)
      = ∑ k : Fin 3, src (ix2 k q) := by
  refine (Ideal.multiReduction_add_single src 0x00000000#32 reduces_S3x65536_S65536 hφ hacc (ix1 q)).trans ?_
  refine Finset.sum_congr rfl fun k _ => congrArg src (funext fun a => Fin.ext ?_)
  match a with
  | ⟨0, _⟩ => rfl
  | ⟨1, _⟩ => rfl

/-- A square root of a block reads, at an index, the square root of the entry. -/
private theorem sqrt_apply {s : Shape} {φ : FTy} (x : FVec Ideal s φ) (i : s.Idx) : sqrt x i = Ideal.sqrt (x i) := rfl

/-- A three-row block divided by the square root of the sum of its squares over the rows: at `(i, q)` it is
    component `i` of column `q` normalised. -/
private theorem unit_apply (o : FVec Ideal S3x65536 .f32) (hφ : FKind.Formats .f32)
    (hacc : (0x00000000#32 : BitVec 32) = FKind.add.neutral .f32 hφ) (i : Fin 3) (q : Fin 65536) :
    divf o (broadcastTo S3x65536 (sqrt (shapeCast S1x65536 (multiReduction (F := Ideal) .add [0] S65536 (mulf o o) 0x00000000#32 reduces_S3x65536_S65536 hφ hacc) shapeCasts_S65536_S1x65536)) broadcasts_S1x65536_S3x65536) (ix2 i q)
      = Spec.unit (fun k => o (ix2 k q)) i := by
  rw [divf_apply, broadcastTo_1b_ab_apply, sqrt_apply, shapeCast_a_1a_apply, rowsum_apply]
  rfl

/-! ## The perceptron on one column -/

/-- The hidden layer at unit `j` of column `q`: the six inputs of the column against row `j` of the weights, the
    bias added, negative values raised to zero. -/
private theorem hidden_apply (x2 : Vec Ideal S20x6 .f32) (x3 : Vec Ideal S20x1 .f32) (hin : FVec Ideal S6x65536 .f32)
    (j : Fin 20) (q : Fin 65536) :
    maximumf
        (addf
          (matmul dot_S20x6_S6x65536_S20x65536_1_0_0_1_n_n none
            (truncf .bf16 (shapeCast S20x6 x2 shapeCasts_S20x6_S20x6) bitsLt_bf16_f32)
            (truncf .bf16 hin bitsLt_bf16_f32) (constant (F := Ideal) S20x65536 .f32 0x00000000#32))
          (broadcastTo S20x65536 (shapeCast S20x1 x3 shapeCasts_S20x1_S20x1) broadcasts_S20x1_S20x65536))
        (broadcast S20x65536 (Scalar.ofBits (F := Ideal) .f32 0x00000000#32)) (ix2 j q)
      = max ((∑ k : Fin 6, hin (ix2 k q) * x2 (ix2 j k)) + x3 (ix2 j (0 : Fin 1))) 0 := by
  rw [maximumf_apply, addf_apply, matmul1_apply, broadcastTo_a1_ab_apply, broadcast_apply, shapeCast_self, shapeCast_self]
  simp only [truncf_apply]
  rw [Ideal.ofBits_def, Ideal.ofBits_zero_f32]
  exact congrArg (fun s => max (s + x3 (ix2 j (0 : Fin 1))) 0) (Finset.sum_congr rfl fun k _ => mul_comm _ _)

/-- The perceptron's result `i` on column `q` of a six-row block of inputs. -/
private theorem mlp_apply (x2 : Vec Ideal S20x6 .f32) (x3 : Vec Ideal S20x1 .f32) (x4 : Vec Ideal S3x20 .f32)
    (x5 : Vec Ideal S3x1 .f32) (hin : FVec Ideal S6x65536 .f32) (i : Fin 3) (q : Fin 65536) :
    addf
        (matmul dot_S3x20_S20x65536_S3x65536_1_0_0_1_n_n none
          (truncf .bf16 (shapeCast S3x20 x4 shapeCasts_S3x20_S3x20) bitsLt_bf16_f32)
          (truncf .bf16
            (maximumf
              (addf
                (matmul dot_S20x6_S6x65536_S20x65536_1_0_0_1_n_n none
                  (truncf .bf16 (shapeCast S20x6 x2 shapeCasts_S20x6_S20x6) bitsLt_bf16_f32)
                  (truncf .bf16 hin bitsLt_bf16_f32) (constant (F := Ideal) S20x65536 .f32 0x00000000#32))
                (broadcastTo S20x65536 (shapeCast S20x1 x3 shapeCasts_S20x1_S20x1) broadcasts_S20x1_S20x65536))
              (broadcast S20x65536 (Scalar.ofBits (F := Ideal) .f32 0x00000000#32)))
            bitsLt_bf16_f32)
          (constant (F := Ideal) S3x65536 .f32 0x00000000#32))
        (broadcastTo S3x65536 (shapeCast S3x1 x5 shapeCasts_S3x1_S3x1) broadcasts_S3x1_S3x65536) (ix2 i q)
      = Spec.mlp (fun k => hin (ix2 k q)) (fun k j => x2 (ix2 j k)) (fun j => x3 (ix2 j (0 : Fin 1)))
          (fun j i => x4 (ix2 i j)) (fun i => x5 (ix2 i (0 : Fin 1))) i := by
  rw [addf_apply, matmul2_apply, broadcastTo_a1_ab_apply]
  unfold Spec.mlp
  refine congrArg₂ (· + ·) (Finset.sum_congr rfl fun j _ => ?_) ?_
  · rw [truncf_apply, truncf_apply, hidden_apply, shapeCast_self, mul_comm]
  · rw [shapeCast_self]

/-! ## The six inputs of one column -/

/-- The six-row block of inputs at `(k, q)`: the node's own feature `k` for `k < 3`, else sum `k - 3` of column `q`
    divided by the count in row 3 raised to at least one. -/
private theorem in_apply (x0 : Vec Ideal S3x65536 .f32) (x1 : Vec Ideal S4x65536 .f32) (k : Fin 6) (q : Fin 65536) :
    concatenate S6x65536 0
        [⟨S3x65536, shapeCast S3x65536 x0 shapeCasts_S3x65536_S3x65536⟩,
          ⟨S3x65536,
            divf
              (extractStridedSlice S3x65536 ![0, 0] (shapeCast S4x65536 x1 shapeCasts_S4x65536_S4x65536)
                slices_S4x65536_o0_0_S3x65536)
              (broadcastTo S3x65536
                (maximumf
                  (extractStridedSlice S1x65536 ![3, 0] (shapeCast S4x65536 x1 shapeCasts_S4x65536_S4x65536)
                    slices_S4x65536_o3_0_S1x65536)
                  (broadcast S1x65536 (Scalar.ofBits (F := Ideal) .f32 0x3F800000#32)))
                broadcasts_S1x65536_S3x65536)⟩]
        concatenates_S3x65536_S3x65536_S6x65536_d0 (ix2 k q)
      = Spec.nodeInK (fun k => x0 (ix2 k q)) (fun k => x1 (ix2 k q)) k := by
  unfold Spec.nodeInK
  by_cases hk : k.val < 3
  · rw [dif_pos hk]
    refine (Cert.Gcn.LayoutReads.stack2_top_apply _ _ _ k q ⟨k.val, hk⟩ rfl).trans ?_
    rw [shapeCast_self]
  · rw [dif_neg hk]
    refine (Cert.Gcn.LayoutReads.stack2_bot_apply _ _ _ k q ⟨k.val - 3, by omega⟩ (by show k.val = 3 + (k.val - 3); omega)).trans ?_
    rw [divf_apply, slice2_axis0_apply 0 _ _ _ q ⟨k.val - 3, by omega⟩ (by simp), broadcastTo_1b_ab_apply, maximumf_apply,
      slice2_axis0_apply 3 _ _ (0 : Fin 1) q (3 : Fin 4) rfl, broadcast_apply, shapeCast_self]
    rfl

/-! ## The stored value -/

theorem pay1_apply (x0 : Vec Ideal S3x65536 .f32) (x1 : Vec Ideal S4x65536 .f32) (x2 : Vec Ideal S20x6 .f32)
    (x3 : Vec Ideal S20x1 .f32) (x4 : Vec Ideal S3x20 .f32) (x5 : Vec Ideal S3x1 .f32) (i : Fin 3) (q : Fin 65536) :
    k1_pay1 (F := Ideal) x0 x1 x2 x3 x4 x5 (ix2 i q)
      = Spec.nodeK (fun k => x0 (ix2 k q)) (fun k => x1 (ix2 k q)) (fun j k => x2 (ix2 j k))
          (fun j => x3 (ix2 j (0 : Fin 1))) (fun i j => x4 (ix2 i j)) (fun i => x5 (ix2 i (0 : Fin 1))) i := by
  unfold k1_pay1
  refine (unit_apply _ _ _ i q).trans ?_
  unfold Spec.nodeK
  refine congrArg (fun o => Spec.unit o i) (funext fun k => ?_)
  refine (mlp_apply x2 x3 x4 x5 _ k q).trans ?_
  exact congrArg (fun h => Spec.mlp h (fun k j => x2 (ix2 j k)) (fun j => x3 (ix2 j (0 : Fin 1)))
    (fun j i => x4 (ix2 i j)) (fun i => x5 (ix2 i (0 : Fin 1))) k) (funext fun m => in_apply x0 x1 m q)

end Cert.PayNode

end
-- ==== Proof.KNodeArr.lean ====
/-
  The node region's output array after the region, element by element, from the region's input arrays as it
  finds them: column n of the [3, 1048576] output depends on column n of the two large inputs and on the four
  small arrays.
-/
import proofs.«408884_j82652350644752_3_alg».proof.Proof.KArgs
import proofs.«408884_j82652350644752_3_alg».proof.Proof.PayNode
import Idealize.ShloMosaic.Lib.ValueIdx
import Idealize.ShloMosaic.Lib.Pipeline.Value

noncomputable section

namespace Cert.KVal

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offset of a rank-2 block read whole. -/
private theorem zero_off : (![0, 0] : Fin 2 → Nat) = fun _ => 0 := funext fun a => by fin_cases a <;> rfl

/-- One element of the node region's result: row `i` of column `n`, from column `n` of the two large arrays and the
    four small arrays whole. -/
private def nodeCol (a0 : S3x1048576.Idx → EReal) (a1 : S4x1048576.Idx → EReal) (a2 : S20x6.Idx → EReal)
    (a3 : S20x1.Idx → EReal) (a4 : S3x20.Idx → EReal) (a5 : S3x1.Idx → EReal) (i : Fin 3) (n : Fin 1048576) : EReal :=
  Spec.nodeK (fun k => a0 (ix2 k n)) (fun k => a1 (ix2 k n)) (fun j k => a2 (ix2 j k))
    (fun j => a3 (ix2 j (0 : Fin 1))) (fun i j => a4 (ix2 i j)) (fun i => a5 (ix2 i (0 : Fin 1))) i

/-- The whole [3, 1048576] result as one function of the six input arrays, index by index. -/
private abbrev nodeG (a0 : S3x1048576.Idx → EReal) (a1 : S4x1048576.Idx → EReal) (a2 : S20x6.Idx → EReal)
    (a3 : S20x1.Idx → EReal) (a4 : S3x20.Idx → EReal) (a5 : S3x1.Idx → EReal) : S3x1048576.Idx → EReal :=
  fun j => nodeCol a0 a1 a2 a3 a4 a5 (j 0) (j 1)

/-- The index maps over the sixteen points: the three column-blocked windows (the two large inputs and the output)
    sit at block (0, t); the four small windows at block (0, 0). -/
private theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = t.val :=
  (by decide +kernel : ∀ t : Fin grid1.N, _)

/-- Block `t` of the [3, 1048576] input is its columns `65536 t … 65536 t + 65535`. -/
private theorem blk0_apply (c : Dev nD) (t : Fin cfg1.N) (x : S3x65536.Idx) (k : S3x1048576.Idx)
    (hk0 : (k 0).val = (x 0).val) (hk1 : (k 1).val = t.val * 65536 + (x 1).val) :
    (iblk1 V c 0 t : Vec Ideal S3x65536 .f32) x = (V c main_v4 : S3x1048576.Idx → EReal) k := by
  obtain ⟨e0, e1, -⟩ := idx_facts t
  unfold iblk1
  rw [View.read_apply]
  show V c main_v4 _ = V c main_v4 _
  congr 1
  funext a
  apply Fin.ext
  match a with
  | ⟨0, _⟩ => show win1_0.index t (0 : Fin 2) * 3 + 1 * (x 0).val = (k 0).val; rw [e0, hk0]; omega
  | ⟨1, _⟩ => show win1_0.index t (1 : Fin 2) * 65536 + 1 * (x 1).val = (k 1).val; rw [e1, hk1]; omega

/-- Block `t` of the [4, 1048576] input is its columns `65536 t … 65536 t + 65535`. -/
private theorem blk1_apply (c : Dev nD) (t : Fin cfg1.N) (x : S4x65536.Idx) (k : S4x1048576.Idx)
    (hk0 : (k 0).val = (x 0).val) (hk1 : (k 1).val = t.val * 65536 + (x 1).val) :
    (iblk1 V c 1 t : Vec Ideal S4x65536 .f32) x = (V c main_v17 : S4x1048576.Idx → EReal) k := by
  obtain ⟨-, -, e0, e1, -⟩ := idx_facts t
  unfold iblk1
  rw [View.read_apply]
  show V c main_v17 _ = V c main_v17 _
  congr 1
  funext a
  apply Fin.ext
  match a with
  | ⟨0, _⟩ => show win1_1.index t (0 : Fin 2) * 4 + 1 * (x 0).val = (k 0).val; rw [e0, hk0]; omega
  | ⟨1, _⟩ => show win1_1.index t (1 : Fin 2) * 65536 + 1 * (x 1).val = (k 1).val; rw [e1, hk1]; omega

/-- Each small window's one block is its whole array. -/
private theorem blk2_eq (c : Dev nD) (t : Fin cfg1.N) :
    (iblk1 V c 2 t : Vec Ideal S20x6 .f32) = (V c main_v18 : S20x6.Idx → EReal) := by
  obtain ⟨-, -, -, -, e0, e1, -⟩ := idx_facts t
  funext x
  unfold iblk1
  rw [View.read_apply]
  show V c main_v18 _ = V c main_v18 _
  congr 1
  funext a
  apply Fin.ext
  match a with
  | ⟨0, _⟩ => show win1_2.index t (0 : Fin 2) * 20 + 1 * (x 0).val = (x 0).val; rw [e0]; omega
  | ⟨1, _⟩ => show win1_2.index t (1 : Fin 2) * 6 + 1 * (x 1).val = (x 1).val; rw [e1]; omega

private theorem blk3_eq (c : Dev nD) (t : Fin cfg1.N) :
    (iblk1 V c 3 t : Vec Ideal S20x1 .f32) = (V c main_v19 : S20x1.Idx → EReal) := by
  obtain ⟨-, -, -, -, -, -, e0, e1, -⟩ := idx_facts t
  funext x
  unfold iblk1
  rw [View.read_apply]
  show V c main_v19 _ = V c main_v19 _
  congr 1
  funext a
  apply Fin.ext
  match a with
  | ⟨0, _⟩ => show win1_3.index t (0 : Fin 2) * 20 + 1 * (x 0).val = (x 0).val; rw [e0]; omega
  | ⟨1, _⟩ => show win1_3.index t (1 : Fin 2) * 1 + 1 * (x 1).val = (x 1).val; rw [e1]; omega

private theorem blk4_eq (c : Dev nD) (t : Fin cfg1.N) :
    (iblk1 V c 4 t : Vec Ideal S3x20 .f32) = (V c main_v20 : S3x20.Idx → EReal) := by
  obtain ⟨-, -, -, -, -, -, -, -, e0, e1, -⟩ := idx_facts t
  funext x
  unfold iblk1
  rw [View.read_apply]
  show V c main_v20 _ = V c main_v20 _
  congr 1
  funext a
  apply Fin.ext
  match a with
  | ⟨0, _⟩ => show win1_4.index t (0 : Fin 2) * 3 + 1 * (x 0).val = (x 0).val; rw [e0]; omega
  | ⟨1, _⟩ => show win1_4.index t (1 : Fin 2) * 20 + 1 * (x 1).val = (x 1).val; rw [e1]; omega

private theorem blk5_eq (c : Dev nD) (t : Fin cfg1.N) :
    (iblk1 V c 5 t : Vec Ideal S3x1 .f32) = (V c main_v21 : S3x1.Idx → EReal) := by
  obtain ⟨-, -, -, -, -, -, -, -, -, -, e0, e1, -⟩ := idx_facts t
  funext x
  unfold iblk1
  rw [View.read_apply]
  show V c main_v21 _ = V c main_v21 _
  congr 1
  funext a
  apply Fin.ext
  match a with
  | ⟨0, _⟩ => show win1_5.index t (0 : Fin 2) * 3 + 1 * (x 0).val = (x 0).val; rw [e0]; omega
  | ⟨1, _⟩ => show win1_5.index t (1 : Fin 2) * 1 + 1 * (x 1).val = (x 1).val; rw [e1]; omega

/-- The body's payload of point `t`'s blocks, at an element of the block, is the result's element in the column the
    block's rectangle says: column `65536 t + q`. -/
private theorem pay_at (c : Dev nD) (t : Fin cfg1.N) (y : S3x65536.Idx) (i : S3x1048576.Idx)
    (h0 : (i 0).val = (y 0).val) (h1 : (i 1).val = t.val * 65536 + (y 1).val) :
    k1_pay1 (F := Ideal) (iblk1 V c 0 t) (iblk1 V c 1 t) (iblk1 V c 2 t) (iblk1 V c 3 t) (iblk1 V c 4 t) (iblk1 V c 5 t) y
      = nodeG (V c main_v4) (V c main_v17) (V c main_v18) (V c main_v19) (V c main_v20) (V c main_v21) i := by
  obtain ⟨p, q, rfl⟩ : ∃ (p : Fin 3) (q : Fin 65536), y = ix2 p q := ⟨y 0, y 1, eq_ix2 y⟩
  obtain ⟨p', n, rfl⟩ : ∃ (p' : Fin 3) (n : Fin 1048576), i = ix2 p' n := ⟨i 0, i 1, eq_ix2 i⟩
  obtain rfl : p' = p := Fin.ext h0
  have hn : n.val = t.val * 65536 + q.val := h1
  refine (Cert.PayNode.pay1_apply (iblk1 V c 0 t) (iblk1 V c 1 t) (iblk1 V c 2 t) (iblk1 V c 3 t) (iblk1 V c 4 t)
    (iblk1 V c 5 t) p' q).trans ?_
  show Spec.nodeK _ _ _ _ _ _ p' = Spec.nodeK _ _ _ _ _ _ p'
  have e0 : (fun k : Fin 3 => (iblk1 V c 0 t : Vec Ideal S3x65536 .f32) (ix2 k q))
      = fun k : Fin 3 => (V c main_v4 : S3x1048576.Idx → EReal) (ix2 k n) :=
    funext fun k => blk0_apply V c t (ix2 k q) (ix2 k n) rfl hn
  have e1 : (fun k : Fin 4 => (iblk1 V c 1 t : Vec Ideal S4x65536 .f32) (ix2 k q))
      = fun k : Fin 4 => (V c main_v17 : S4x1048576.Idx → EReal) (ix2 k n) :=
    funext fun k => blk1_apply V c t (ix2 k q) (ix2 k n) rfl hn
  rw [e0, e1, blk2_eq V c t, blk3_eq V c t, blk4_eq V c t, blk5_eq V c t]

/-- WHAT POINT `t` WRITES BACK is block `t` of the whole-array function of the input arrays as the region finds them. -/
private theorem flushed_eq (c : Dev nD) (t : Fin cfg1.N) :
    (dat1 V c).flushed 6 t = ((cfg1.win 6).blk t).view.read (Elt Ideal)
      (nodeG (V c main_v4) (V c main_v17) (V c main_v18) (V c main_v19) (V c main_v20) (V c main_v21)) := by
  show (cfg1.win 6).cut (grid1.coords t) ((dat1 V c).after 6 t) = _
  rw [after1_6]
  unfold out1_6
  rw [View.canon_unit_zero zero_off]
  simp only [View.ld_unit_zero (S := S3x65536) zero_off, View.ld_unit_zero (S := S4x65536) zero_off,
    View.ld_unit_zero (S := S20x6) zero_off, View.ld_unit_zero (S := S20x1) zero_off,
    View.ld_unit_zero (S := S3x20) zero_off, View.ld_unit_zero (S := S3x1) zero_off]
  obtain ⟨-, -, -, -, -, -, -, -, -, -, -, -, e0, e1⟩ := idx_facts t
  funext j
  refine pay_at V c t ((cfg1.win 6).xinj (grid1.coords t) j) (((cfg1.win 6).blk t).view.emb j) ?_ ?_
  · show win1_6.index t (0 : Fin 2) * 3 + 1 * (j 0).val = (j 0).val
    rw [e0]; omega
  · show win1_6.index t (1 : Fin 2) * 65536 + 1 * (j 1).val = t.val * 65536 + (j 1).val
    rw [e1]; omega

/-- An index of the array is in point `t`'s block iff each coordinate is in the block's range on its axis. -/
private theorem mem_blk (t : Fin cfg1.N) (i : S3x1048576.Idx) :
    i ∈ ((cfg1.win 6).blk t).view.set ↔ ∀ a : Fin 2, win1_6.index t a * S3x65536.size a ≤ (i a).val
      ∧ (i a).val < win1_6.index t a * S3x65536.size a + S3x65536.size a := by
  show i ∈ ((View.whole main_v22).slice (win1_6.rect t)).set ↔ _
  rw [View.set_slice_whole, Rect.mem_set_unit]
  exact Iff.rfl

/-- Column `r` lies in the block of point `r / 65536`: the sixteen blocks cover the array. -/
private theorem cover (i : S3x1048576.Idx) :
    ∃ t : Fin cfg1.N, (cfg1.win 6).flush t = true ∧ i ∈ ((cfg1.win 6).blk t).view.set := by
  have hi0 : (i 0).val < 3 := (i 0).isLt
  have hi1 : (i 1).val < 1048576 := (i 1).isLt
  have hN : cfg1.N = 16 := N_1
  let t : Fin cfg1.N := ⟨(i 1).val / 65536, by rw [hN]; omega⟩
  obtain ⟨-, -, -, -, -, -, -, -, -, -, -, -, e0, e1⟩ := idx_facts t
  have ht : t.val = (i 1).val / 65536 := rfl
  refine ⟨t, flush1_6 t, ?_⟩
  rw [mem_blk]
  intro a
  match a with
  | ⟨0, _⟩ =>
    show win1_6.index t (0 : Fin 2) * 3 ≤ (i 0).val ∧ (i 0).val < win1_6.index t (0 : Fin 2) * 3 + 3
    rw [e0]; omega
  | ⟨1, _⟩ =>
    show win1_6.index t (1 : Fin 2) * 65536 ≤ (i 1).val ∧ (i 1).val < win1_6.index t (1 : Fin 2) * 65536 + 65536
    rw [e1, ht]; omega

/-- THE ARRAY after the region: the whole-array function of the input arrays. -/
private theorem node_final (c : Dev nD) :
    (dat1 V c).arrAt 6 cfg1.N
      = nodeG (V c main_v4) (V c main_v17) (V c main_v18) (V c main_v19) (V c main_v20) (V c main_v21) :=
  (dat1 V c).arrAt_eq_of_cover 6
    (nodeG (V c main_v4) (V c main_v17) (V c main_v18) (V c main_v19) (V c main_v20) (V c main_v21))
    (fun t _ => flushed_eq V c t) cover

theorem node_arr (c : Dev nD) (i : Fin 3) (n : Fin 1048576) :
    nodeArrOf V c (ix2 i n)
      = Spec.nodeK (fun k => (V c main_v4 : S3x1048576.Idx → EReal) (ix2 k n))
          (fun k => (V c main_v17 : S4x1048576.Idx → EReal) (ix2 k n))
          (fun j k => (V c main_v18 : S20x6.Idx → EReal) (ix2 j k))
          (fun j => (V c main_v19 : S20x1.Idx → EReal) (ix2 j (0 : Fin 1)))
          (fun i j => (V c main_v20 : S3x20.Idx → EReal) (ix2 i j))
          (fun i => (V c main_v21 : S3x1.Idx → EReal) (ix2 i (0 : Fin 1))) i :=
  congrFun (node_final V c) (ix2 i n)

end Cert.KVal

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.KHostIn.lean ====
/-
  What the edge region finds in its large input array: the host operations before it, read at one element.

  The array is [4, 4194304]: rows 0..2 of column e are the source node's features (the gather on the transposed
  feature table, kept where the source word names a node), row 3 is the edge's attribute.
-/
import proofs.«408884_j82652350644752_3_alg».proof.Proof.KArgs
import proofs.«408884_j82652350644752_3_alg».proof.Proof.LibIndexMaps
import proofs.«408884_j82652350644752_3_alg».proof.Proof.LibWordArith
import proofs.«408884_j82652350644752_3_alg».proof.Proof.LibLayoutReads
import Idealize.ShloMosaic.Lib.ValueIdx
import Idealize.ShloMosaic.Lib.ValueLayout
import Idealize.ShloMosaic.Lib.Pipeline.Value
import Idealize.ShloMosaic.Lib.StableHlo.Run
import Idealize.ShloMosaic.Lib.ReduceAll

noncomputable section

namespace Cert.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! ## The gather of columns, read at one element whatever the start word -/

section ColumnGather

open Cert.Gcn.IndexMaps

/-- Of two axes, the ones kept beside the first are the second alone. -/
private theorem kept_fst {s : Shape} (hr : s.rank = 2) (axes : List (Fin s.rank))
    (hne : ∃ a ∈ axes, a.val = 0) : ∀ x ∈ s.kept axes, x.val = 1 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- With the first result axis the offset axis, result element (c, p) reads its one start-index component at (p, 0). -/
private theorem gatherCol_siIdx {s : Shape} {e f : ℕ} (d : GatherDims s ⟨2, ![e, 1]⟩ ⟨2, ![f, e]⟩)
    (hod : d.offsetDims = [0]) (hivd : d.indexVectorDim = 1) (j : (⟨2, ![f, e]⟩ : Shape).Idx)
    (c : Fin d.startIndexMap.length) :
    d.siIdx j c = ix2 (n0 := e) (n1 := 1) (j 1) 0 := by
  have hbd : ∀ x ∈ d.batchDims, x.val = 1 :=
    kept_fst rfl _ (by rw [hod]; exact ⟨0, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val1 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- An [f × n] operand of n > 0 columns, an [e × 1] column of start words, an [f × e] result, the first axis an
    offset axis of full height and the second operand axis the indexed, collapsed one: result element (c, p) is the
    operand's element (c, q), where the column q is the start word at (p, 0) read signed, as a natural number,
    clamped to the last column n − 1. No hypothesis is made on the start words. -/
theorem gatherCol_clamp_apply {α : Type} {f n e w : ℕ} (hn : 0 < n) (d : GatherDims ⟨2, ![f, n]⟩ ⟨2, ![e, 1]⟩ ⟨2, ![f, e]⟩)
    (hod : d.offsetDims = [0]) (hcoll : d.collapsedSliceDims = [1]) (hob : d.operandBatchingDims = [])
    (hsim : d.startIndexMap = [1]) (hivd : d.indexVectorDim = 1)
    (x : (⟨2, ![f, n]⟩ : Shape).Idx → α) (idx : IVec ⟨2, ![e, 1]⟩ w) (c : Fin f) (p : Fin e) :
    Host.gather d x idx (ix2 c p) = x (ix2 c ⟨min (idx (ix2 p (0 : Fin 1))).toInt.toNat (n - 1), by omega⟩) := by
  unfold Host.gather
  congr 1
  funext a
  apply Fin.ext
  have hb : ∀ a : Fin 2, a ∉ d.operandBatchingDims := by intro a; rw [hob]; exact List.not_mem_nil
  show d.start (ix2 c p) idx a + d.batchCoord (ix2 c p) a + d.offCoord (ix2 c p) a
    = (ix2 c (⟨min (idx (ix2 p (0 : Fin 1))).toInt.toNat (n - 1), by omega⟩ : Fin n) a).val
  rw [GatherDims.batchCoord_eq_zero _ _ _ (hb a)]
  rcases fin2_cases a with rfl | rfl
  · have hkp : (0 : Fin 2) ∈ d.sKept := by rw [GatherDims.mem_sKept, hcoll, hob]; simp
    have hm : (0 : Fin 2) ∉ d.startIndexMap := by rw [hsim]; simp
    unfold GatherDims.start GatherDims.offCoord
    rw [dif_neg hm, dif_pos hkp]
    show 0 + 0 + ((ix2 c p) _).val = c.val
    have hall : ∀ x ∈ d.offsetDims, x.val = 0 := by rw [hod]; simp
    rw [coord_of_val0 (ix2 c p) _ (hall _ (List.getElem_mem _))]
    show 0 + 0 + c.val = c.val
    omega
  · have hkp : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    rw [GatherDims.offCoord_eq_zero _ _ _ hkp]
    unfold GatherDims.start
    rw [dif_pos hm, gatherCol_siIdx d hod hivd, hsl]
    rfl

end ColumnGather

/-! ## A reduction by and of one-bit words that meets only ones -/

section ReduceAnd

/-- A left fold by and over one-bit words, started at 1, that meets only 1s is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 by decide]
    exact foldl_andi_one f l fun n hn => h n (List.mem_cons_of_mem _ hn)

/-- A reduction by and, from an initial word 1, is 1 at a result index when the operand is 1 at every index that
    reduces into it. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl, hinit]
  refine foldl_andi_one x _ fun i hi => ?_
  rw [List.mem_filter] at hi
  exact hx i (by simpa using hi.2)

/-- Along the second axis, of extent one, of an [n × 1] array: the result at p is 1 when the operand is 1 at (p, 0). -/
theorem reduce_andi_col {n : ℕ} (x : IVec ⟨2, ![n, 1]⟩ 1) (init : IVec ⟨0, ![]⟩ 1)
    (h : (⟨2, ![n, 1]⟩ : Shape).ReducesTo [1] ⟨1, ![n]⟩) (hu : 0 < (⟨0, ![]⟩ : Shape).numel) (p : Fin n)
    (hinit : init (Shape.Idx.first hu) = 1#1) (hx : x (ix2 p (0 : Fin 1)) = 1#1) :
    Host.reduce IntOp.andi x init h hu (ix1 p) = 1#1 := by
  refine reduce_andi_one x init h hu _ hinit fun i hi => ?_
  have h0 : (i 0).val = p.val := by
    have e := congrArg (fun j : (⟨1, ![n]⟩ : Shape).Idx => (j 0).val) hi
    exact e
  have hi' : i = ix2 p (0 : Fin 1) := by
    funext b
    match b with
    | ⟨0, _⟩ => exact Fin.ext h0
    | ⟨1, h1⟩ =>
      apply Fin.ext
      have h2 := (i ⟨1, h1⟩).isLt
      have h3 : (⟨2, ![n, 1]⟩ : Shape).size ⟨1, h1⟩ = 1 := rfl
      show (i ⟨1, h1⟩).val = 0
      omega
  rw [hi']; exact hx

end ReduceAnd

/-! ## The stretches before the region, as terms over the arrays they read -/

section Terms

variable {F : FTy → Type} [FloatOps F]

/-- Row 0 of the edge endpoints as a vector: the slice [0:1] reshaped. -/
def srcRow (ei : IVec S2x4194304 32) : IVec S4194304 32 :=
  shapeCast S4194304 (extractStridedSlice S1x4194304 ![0, 0] ei slices_S2x4194304_S1x4194304_0_0) shapeCasts_S1x4194304_S4194304

/-- The source words: a negative word moved up by the number of nodes. -/
def takeWord (w1 : IVec S4194304 32) : IVec S4194304 32 :=
  select (cmpi .slt w1 (broadcastInDim S4194304 ![] bcast_S_S4194304 (constantI S_ 32 0#32)))
    (addi w1 (broadcastInDim S4194304 ![] bcast_S_S4194304 (constantI S_ 32 1048576#32))) w1

/-- The source words as a column. -/
def takeCol (w1 : IVec S4194304 32) : IVec S4194304x1 32 :=
  broadcastInDim S4194304x1 ![0] bcast_S4194304_S4194304x1_0 (takeWord w1)

/-- The mask: per edge, the conjunction along the column's unit axis of "the word is at least 0 and at most the
    last node". -/
def takeMask (w1 : IVec S4194304 32) : IVec S4194304 1 :=
  Host.reduce IntOp.andi
    (andi (cmpi .sge (takeCol w1) (broadcastInDim S4194304x1 ![] bcast_S_S4194304x1 (constantI S_ 32 0#32)))
      (cmpi .sle (takeCol w1) (broadcastInDim S4194304x1 ![0, 1] bcast_S1x1_S4194304x1_0_1
        (broadcastInDim S1x1 ![1] bcast_S1_S1x1_1 (constantI S1 32 1048575#32)))))
    (constantI S_ 1 1#1) reducesTo_S4194304x1_S4194304_d1 h_S_

/-- The gathered columns of the transposed feature table, kept where the mask is 1, else a fill word. -/
def takeOut (w1 : IVec S4194304 32) (xT : FVec F S3x1048576 .f32) : FVec F S3x4194304 .f32 :=
  select (broadcastInDim S3x4194304 ![1] bcast_S4194304_S3x4194304_1 (takeMask w1))
    (Host.gather gather_S3x1048576_S4194304x1_S3x4194304_0_1_n_n_1_1_31 xT (takeCol w1))
    (broadcastInDim S3x4194304 ![] bcast_S_S3x4194304 (constant (F := F) S_ .f32 0x7FC00000#32))

end Terms

/-! ## What each stretch leaves in the buffers the region's large input is made of -/

section Stretches

variable {F : FTy → Type} [FloatOps F] (W : Valuation τ sig (Elt F))

private theorem ops2_v7 :
    (StableHlo.after (hostOps0_2 (F := F)) W (Proc.devRef .tc main_v7) : FVec F S4x4194304 .f32)
      = concatenate S4x4194304 0 [⟨S3x4194304, (W (Proc.devRef .tc main_v5) : FVec F S3x4194304 .f32)⟩,
          ⟨S1x4194304, shapeCast S1x4194304 (W (Proc.devRef .tc main_arg2) : FVec F S4194304x1 .f32) shapeCasts_S4194304x1_S1x4194304⟩]
          concatenates_S3x4194304_S1x4194304_S4x4194304_d0 := by
  after_results
  rfl

/-- The second stretch's last five operations, from the mask, the column of source words and the transposed table. -/
private theorem ops1_tail_v5 :
    (StableHlo.after ((hostOps0_1 (F := F)).drop 18) W (Proc.devRef .tc main_v5) : FVec F S3x4194304 .f32)
      = select (broadcastInDim S3x4194304 ![1] bcast_S4194304_S3x4194304_1 (W (Proc.devRef .tc main_call0_v12) : IVec S4194304 1))
          (Host.gather gather_S3x1048576_S4194304x1_S3x4194304_0_1_n_n_1_1_31 (W (Proc.devRef .tc main_v4) : FVec F S3x1048576 .f32)
            (W (Proc.devRef .tc main_call0_v5) : IVec S4194304x1 32))
          (broadcastInDim S3x4194304 ![] bcast_S_S3x4194304 (constant (F := F) S_ .f32 0x7FC00000#32)) := by
  simp only [hostOps0_1, List.drop_succ_cons, List.drop_zero]
  after_results_simp
  rfl

/-- The second stretch's first eighteen operations: the mask. -/
private theorem ops1_head_v12 :
    (StableHlo.after ((hostOps0_1 (F := F)).take 18) W (Proc.devRef .tc main_call0_v12) : IVec S4194304 1)
      = takeMask (W (Proc.devRef .tc main_v1) : IVec S4194304 32) := by
  simp only [hostOps0_1, List.take_succ_cons, List.take_zero]
  after_results_simp
  simp only [StableHlo.TRef.ofBuf, StableHlo.TRef.toBuf, cast_cast, cast_eq]
  rfl

/-- The second stretch's first eighteen operations: the column of source words. -/
private theorem ops1_head_v5 :
    (StableHlo.after ((hostOps0_1 (F := F)).take 18) W (Proc.devRef .tc main_call0_v5) : IVec S4194304x1 32)
      = takeCol (W (Proc.devRef .tc main_v1) : IVec S4194304 32) := by
  simp only [hostOps0_1, List.take_succ_cons, List.take_zero]
  after_results_simp
  rfl

/-- The second stretch's first eighteen operations leave the transposed table as it was. -/
private theorem ops1_head_v4 :
    StableHlo.after ((hostOps0_1 (F := F)).take 18) W (Proc.devRef .tc main_v4) = W (Proc.devRef .tc main_v4) := by
  simp only [hostOps0_1, List.take_succ_cons, List.take_zero]
  after_results_simp

private theorem ops1_v5 :
    (StableHlo.after (hostOps0_1 (F := F)) W (Proc.devRef .tc main_v5) : FVec F S3x4194304 .f32)
      = takeOut (W (Proc.devRef .tc main_v1) : IVec S4194304 32) (W (Proc.devRef .tc main_v4) : FVec F S3x1048576 .f32) := by
  have hs : (hostOps0_1 (F := F)) = (hostOps0_1 (F := F)).take 18 ++ (hostOps0_1 (F := F)).drop 18 :=
    (List.take_append_drop 18 _).symm
  rw [hs, StableHlo.after_append, ops1_tail_v5, ops1_head_v12, ops1_head_v5, ops1_head_v4]
  rfl

private theorem ops1_arg2 :
    StableHlo.after (hostOps0_1 (F := F)) W (Proc.devRef .tc main_arg2) = W (Proc.devRef .tc main_arg2) := by
  after_results_simp

private theorem ops0_v1 :
    (StableHlo.after (hostOps0 (F := F)) W (Proc.devRef .tc main_v1) : IVec S4194304 32)
      = srcRow (W (Proc.devRef .tc main_arg1) : IVec S2x4194304 32) := by
  after_results
  rfl

private theorem ops0_v4 :
    (StableHlo.after (hostOps0 (F := F)) W (Proc.devRef .tc main_v4) : FVec F S3x1048576 .f32)
      = transpose S3x1048576 [1, 0] (W (Proc.devRef .tc main_arg0) : FVec F S1048576x3 .f32) transposes_S1048576x3_S3x1048576_1_0 := by
  after_results

private theorem ops0_arg2 :
    StableHlo.after (hostOps0 (F := F)) W (Proc.devRef .tc main_arg2) = W (Proc.devRef .tc main_arg2) := by
  after_results

end Stretches

/-! ## The terms read at one element -/

section Reads

open Cert.Gcn.LayoutReads

/-- Entry e of row 0 of the edge endpoints. -/
theorem srcRow_apply (ei : IVec S2x4194304 32) (e : Fin 4194304) : srcRow ei (ix1 e) = ei (ix2 (0 : Fin 2) e) := by
  unfold srcRow
  rw [shapeCast_ab_n_apply _ _ e (0 : Fin 1) e (by show e.val = 0 * 4194304 + e.val; omega)]
  exact extractStridedSlice_apply _ _ _ _ _ (fun a => by
    match a with
    | ⟨0, _⟩ => rfl
    | ⟨1, _⟩ => show e.val = 0 + e.val; omega)

/-- The source word of edge e, from the vector of raw words. -/
theorem takeWord_apply (w1 : IVec S4194304 32) (e : Fin 4194304) :
    takeWord w1 (ix1 e) = Scalar.select (IntOp.cmpi .slt (w1 (ix1 e)) 0#32) (IntOp.addi (w1 (ix1 e)) 1048576#32) (w1 (ix1 e)) := rfl

/-- The column of source words at (e, 0) is the source word of e. -/
theorem takeCol_apply (w1 : IVec S4194304 32) (e : Fin 4194304) : takeCol w1 (ix2 e (0 : Fin 1)) = takeWord w1 (ix1 e) :=
  broadcastInDim_a_a1_apply _ _ e 0

/-- Where the source word, read signed, names a node, the mask is 1. -/
theorem takeMask_apply (w1 : IVec S4194304 32) (e : Fin 4194304) (h0 : 0 ≤ (takeWord w1 (ix1 e)).toInt)
    (h1 : (takeWord w1 (ix1 e)).toInt < 1048576) : takeMask w1 (ix1 e) = 1#1 := by
  unfold takeMask
  refine reduce_andi_col _ _ _ _ e rfl ?_
  show IntOp.andi (IntOp.cmpi .sge (takeCol w1 (ix2 e (0 : Fin 1))) 0#32)
    (IntOp.cmpi .sle (takeCol w1 (ix2 e (0 : Fin 1))) 1048575#32) = 1#1
  rw [takeCol_apply]
  have e0 : (0#32 : BitVec 32).toInt = 0 := by decide
  have e1 : (1048575#32 : BitVec 32).toInt = 1048575 := by decide
  exact IntOp.andi_eq_one.mpr ⟨IntOp.cmpi_sge.mpr (by rw [e0]; exact h0), IntOp.cmpi_sle.mpr (by rw [e1]; omega)⟩

/-- Where the source word of edge e names a node, rows 0..2 of column e are that node's column of the table: the
    clamp of the word read signed. -/
theorem takeOut_apply {F : FTy → Type} [FloatOps F] (w1 : IVec S4194304 32) (xT : FVec F S3x1048576 .f32) (k : Fin 3) (e : Fin 4194304)
    (h0 : 0 ≤ (takeWord w1 (ix1 e)).toInt) (h1 : (takeWord w1 (ix1 e)).toInt < 1048576) :
    takeOut w1 xT (ix2 k e) = xT (ix2 k ⟨min (takeWord w1 (ix1 e)).toInt.toNat (1048576 - 1), by omega⟩) := by
  unfold takeOut
  rw [select_apply]
  have hm : broadcastInDim S3x4194304 ![1] bcast_S4194304_S3x4194304_1 (takeMask w1) (ix2 k e) = 1#1 := by
    rw [broadcastInDim_apply ![1] bcast_S4194304_S3x4194304_1 (takeMask w1) (ix2 k e) (ix1 e) (fun a => by
      match a with
      | ⟨0, _⟩ => rfl)]
    exact takeMask_apply w1 e h0 h1
  rw [hm, select_one, gatherCol_clamp_apply (by decide) _ rfl rfl rfl rfl rfl]
  refine congrArg xT (congrArg (ix2 k) (Fin.ext ?_))
  show min (takeCol w1 (ix2 e (0 : Fin 1))).toInt.toNat (1048576 - 1) = min (takeWord w1 (ix1 e)).toInt.toNat (1048576 - 1)
  rw [takeCol_apply]

end Reads

/-! ## The region's large input at one element -/

/-- The whole array: the kept gather stacked on the edge attributes as a row. -/
private theorem v7_eq :
    (V3 m ρ c main_v7 : S4x4194304.Idx → EReal)
      = concatenate S4x4194304 0 [⟨S3x4194304, takeOut (F := Ideal) (srcRow (aEI m c)) (transpose S3x1048576 [1, 0] (aX m c) transposes_S1048576x3_S3x1048576_1_0)⟩,
          ⟨S1x4194304, shapeCast S1x4194304 (aEA m c) shapeCasts_S4194304x1_S1x4194304⟩]
          concatenates_S3x4194304_S1x4194304_S4x4194304_d0 := by
  refine (ops2_v7 (W2 m ρ c)).trans ?_
  have h5 : (W2 m ρ c (Proc.devRef .tc main_v5) : S3x4194304.Idx → EReal)
      = takeOut (F := Ideal) (srcRow (aEI m c)) (transpose S3x1048576 [1, 0] (aX m c) transposes_S1048576x3_S3x1048576_1_0) := by
    refine (ops1_v5 (W1 m ρ c)).trans ?_
    rw [show (W1 m ρ c (Proc.devRef .tc main_v1) : IVec S4194304 32) = srcRow (aEI m c) from ops0_v1 (W0 m ρ c),
      show (W1 m ρ c (Proc.devRef .tc main_v4) : S3x1048576.Idx → EReal)
        = transpose S3x1048576 [1, 0] (aX m c) transposes_S1048576x3_S3x1048576_1_0 from ops0_v4 (W0 m ρ c)]
  have h2 : (W2 m ρ c (Proc.devRef .tc main_arg2) : S4194304x1.Idx → EReal) = aEA m c :=
    (ops1_arg2 (W1 m ρ c)).trans (ops0_arg2 (W0 m ρ c))
  rw [h5, h2]

theorem V3_hin (e : Fin 4194304) (he : Spec.SrcInRange (aEI m c) e) (k : Fin 4) :
    (V3 m ρ c main_v7 : S4x4194304.Idx → EReal) (ix2 k e) = Spec.edgeIn (aX m c) (aEI m c) (aEA m c) e k := by
  -- the source word of e, as the stretch computes it, is the word of the statement
  have hw : takeWord (srcRow (aEI m c)) (ix1 e) = Spec.srcWord (aEI m c) e := by
    rw [takeWord_apply, srcRow_apply]; rfl
  rw [v7_eq]
  unfold Spec.edgeIn
  by_cases hk : k.val < 3
  · rw [dif_pos hk, Cert.Gcn.LayoutReads.stack2_top_apply _ _ _ k e ⟨k.val, hk⟩ rfl,
      takeOut_apply _ _ _ e (by rw [hw]; exact he.1) (by rw [hw]; exact he.2)]
    -- the transposed table at (k, n) is the table at (n, k); the clamp is the source node
    refine (transpose_apply _ _ _ _ (ix2 (Spec.src (aEI m c) e) ⟨k.val, hk⟩) (fun b => by
      match b with
      | ⟨0, _⟩ => rfl
      | ⟨1, _⟩ => show (Spec.src (aEI m c) e).val = min (takeWord (srcRow (aEI m c)) (ix1 e)).toInt.toNat (1048576 - 1); rw [hw]; rfl)).trans ?_
    rfl
  · rw [dif_neg hk, Cert.Gcn.LayoutReads.stack2_bot_apply _ _ _ k e (0 : Fin 1) (by show k.val = 3 + 0; omega)]
    -- row 0 of the attributes as a row is the attribute column
    exact shapeCast_apply _ _ _ (ix2 e (0 : Fin 1)) (by
      rw [Shape.rowMajor_val_two, Shape.rowMajor_val_two]
      show e.val * 1 + 0 = 0 * 4194304 + e.val
      omega)

end Cert.KVal

end
-- ==== Proof.KHostInW.lean ====
/-
  What the edge region finds in its four small input arrays: the first perceptron's weights transposed and its
  biases as columns, read at one element.
-/
import proofs.«408884_j82652350644752_3_alg».proof.Proof.KArgs
import proofs.«408884_j82652350644752_3_alg».proof.Proof.LibLayoutReads
import Idealize.ShloMosaic.Lib.ValueIdx
import Idealize.ShloMosaic.Lib.ValueLayout
import Idealize.ShloMosaic.Lib.Pipeline.Value
import Idealize.ShloMosaic.Lib.StableHlo.Run

noncomputable section

namespace Cert.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! ## The four arrays whole: each is one layout operation of a launch argument nothing has written -/

/-- The first weights transposed: the edge region's `[20, 4]` array is the transpose of the `[4, 20]` argument. -/
private theorem V3_v8_eq :
    (V3 m ρ c main_v8 : S20x4.Idx → EReal) = transpose S20x4 [1, 0] (aW1a m c) transposes_S4x20_S20x4_1_0 := by
  dsimp only [V3, W3]
  after_results

/-- The first bias as a column: the `[20, 1]` array is the `[20]` argument reshaped. -/
private theorem V3_v9_eq :
    (V3 m ρ c main_v9 : S20x1.Idx → EReal) = shapeCast S20x1 (aB1a m c) shapeCasts_S20_S20x1 := by
  dsimp only [V3, W3]
  after_results
  rfl

/-- The second weights transposed: the `[3, 20]` array is the transpose of the `[20, 3]` argument. -/
private theorem V3_v10_eq :
    (V3 m ρ c main_v10 : S3x20.Idx → EReal) = transpose S3x20 [1, 0] (aW1b m c) transposes_S20x3_S3x20_1_0 := by
  dsimp only [V3, W3]
  after_results

/-- The second bias as a column: the `[3, 1]` array is the `[3]` argument reshaped. -/
private theorem V3_v11_eq :
    (V3 m ρ c main_v11 : S3x1.Idx → EReal) = shapeCast S3x1 (aB1b m c) shapeCasts_S3_S3x1 := by
  dsimp only [V3, W3]
  after_results
  rfl

/-! ## Read at one element -/

theorem V3_w1aT (j : Fin 20) (k : Fin 4) :
    (V3 m ρ c main_v8 : S20x4.Idx → EReal) (ix2 j k) = aW1a m c (ix2 k j) := by
  rw [V3_v8_eq]
  exact transpose_ix2_apply (aW1a m c) transposes_S4x20_S20x4_1_0 j k

theorem V3_b1a (j : Fin 20) (u : Fin 1) :
    (V3 m ρ c main_v9 : S20x1.Idx → EReal) (ix2 j u) = aB1a m c (ix1 j) := by
  rw [V3_v9_eq]
  exact Cert.Gcn.LayoutReads.shapeCast_a_a1_apply (aB1a m c) shapeCasts_S20_S20x1 j u

theorem V3_w1bT (i : Fin 3) (j : Fin 20) :
    (V3 m ρ c main_v10 : S3x20.Idx → EReal) (ix2 i j) = aW1b m c (ix2 j i) := by
  rw [V3_v10_eq]
  exact transpose_ix2_apply (aW1b m c) transposes_S20x3_S3x20_1_0 i j

theorem V3_b1b (i : Fin 3) (u : Fin 1) :
    (V3 m ρ c main_v11 : S3x1.Idx → EReal) (ix2 i u) = aB1b m c (ix1 i) := by
  rw [V3_v11_eq]
  exact Cert.Gcn.LayoutReads.shapeCast_a_a1_apply (aB1b m c) shapeCasts_S3_S3x1 i u

end Cert.KVal

end
-- ==== Proof.LibScatterHost.lean ====
/-
  The accumulating row scatter, read at one element, in the host operation's own spelling.

  An accumulating scatter of [e × f] update rows into an [n × f] array by an [e × 1] column of row words leaves at
  (r, c) the array's element plus column c of every update row whose word, read signed, is r. This is the statement
  of the index-map lemma with the operation written as the host program writes it.
-/
import proofs.«408884_j82652350644752_3_alg».proof.Proof.LibIndexMaps
import Idealize.ShloMosaic.PureOps.Contract

noncomputable section

namespace Cert.LibScatterHost

open Idealize.ShloMosaic Idealize.ShloMosaic.ValueIdx

theorem scatterAdd2_apply {φ : FTy} {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : FVec Ideal ⟨2, ![n, f]⟩ φ) (idx : IVec ⟨2, ![e, 1]⟩ w) (upd : FVec Ideal ⟨2, ![e, f]⟩ φ)
    (r : Fin n) (c : Fin f) :
    Host.scatterAdd (F := Ideal) d x idx upd (ix2 r c)
      = x (ix2 r c) + ∑ p : Fin e, if (idx (ix2 p (0 : Fin 1))).toInt = ((r.val : ℕ) : Int) then upd (ix2 p c) else 0 :=
  Cert.Gcn.IndexMaps.hostScatterAdd2_apply d huw hiw hsd hivd x idx upd r c

end Cert.LibScatterHost

end
-- ==== Proof.KHostMid.lean ====
/-
  What the node region finds in its six input arrays, and what the program returns: the host operations
  between the two regions and after the second, read at one element.

  Input 0 is the transposed feature table. Input 1 is [4, 1048576]: row k of column n is the sum, over the
  edges whose destination word names node n, of row k of the edge region's output column. Inputs 2..5 are the
  second perceptron's weights transposed and its biases as columns. The result is the node region's output
  transposed.
-/
import proofs.«408884_j82652350644752_3_alg».proof.Proof.KArgs
import proofs.«408884_j82652350644752_3_alg».proof.Proof.LibIndexMaps
import proofs.«408884_j82652350644752_3_alg».proof.Proof.LibScatterHost
import proofs.«408884_j82652350644752_3_alg».proof.Proof.LibLayoutReads
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- The buffer is the result of no operation of the stretch, so the stretch leaves it as it was. -/
local macro "unwritten" : tactic =>
  `(tactic| (refine StableHlo.after_of_forall_not_mem _ _ (List.forall_iff_forall_mem.mp ?_)
             simp only [hostOps0, hostOps0_1, hostOps0_2, hostOps1, hostOps2, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## Buffers that hold, at the edge region's exit, what the launch or the first host stretch left -/

/-- A buffer that is no array of the edge region and that no host operation of the second and third stretches
    writes holds, at the edge region's exit, what the first stretch left in it. -/
private theorem W4_first (b : Ref sig .tc) (h4 : ∀ w, Pipeline.arrRef spec0 w ≠ b)
    (h2 : StableHlo.after hostOps0_2 (W2 m ρ c) (Proc.devRef .tc b) = W2 m ρ c (Proc.devRef .tc b))
    (h1 : StableHlo.after hostOps0_1 (W1 m ρ c) (Proc.devRef .tc b) = W1 m ρ c (Proc.devRef .tc b)) :
    W4 m ρ c (Proc.devRef .tc b) = W1 m ρ c (Proc.devRef .tc b) :=
  calc W4 m ρ c (Proc.devRef .tc b)
    _ = W3 m ρ c (Proc.devRef .tc b) := W4_of_ne m ρ c b h4
    _ = W2 m ρ c (Proc.devRef .tc b) := h2
    _ = W1 m ρ c (Proc.devRef .tc b) := h1

/-- If moreover no operation of the first stretch writes it, it holds what it held at launch. -/
private theorem W4_launch (b : Ref sig .tc) (h4 : ∀ w, Pipeline.arrRef spec0 w ≠ b)
    (h2 : StableHlo.after hostOps0_2 (W2 m ρ c) (Proc.devRef .tc b) = W2 m ρ c (Proc.devRef .tc b))
    (h1 : StableHlo.after hostOps0_1 (W1 m ρ c) (Proc.devRef .tc b) = W1 m ρ c (Proc.devRef .tc b))
    (h0 : StableHlo.after hostOps0 (W0 m ρ c) (Proc.devRef .tc b) = W0 m ρ c (Proc.devRef .tc b)) :
    W4 m ρ c (Proc.devRef .tc b) = W0 m ρ c (Proc.devRef .tc b) :=
  (W4_first m ρ c b h4 h2 h1).trans h0

private theorem W4_arg9 : W4 m ρ c (Proc.devRef .tc main_arg9) = m ((c : Thread nD τ).loc main_arg9) :=
  (W4_launch m ρ c main_arg9 (by decide) (by unwritten) (by unwritten) (by unwritten)).trans rfl

private theorem W4_arg10 : W4 m ρ c (Proc.devRef .tc main_arg10) = m ((c : Thread nD τ).loc main_arg10) :=
  (W4_launch m ρ c main_arg10 (by decide) (by unwritten) (by unwritten) (by unwritten)).trans rfl

private theorem W4_arg11 : W4 m ρ c (Proc.devRef .tc main_arg11) = m ((c : Thread nD τ).loc main_arg11) :=
  (W4_launch m ρ c main_arg11 (by decide) (by unwritten) (by unwritten) (by unwritten)).trans rfl

private theorem W4_arg12 : W4 m ρ c (Proc.devRef .tc main_arg12) = m ((c : Thread nD τ).loc main_arg12) :=
  (W4_launch m ρ c main_arg12 (by decide) (by unwritten) (by unwritten) (by unwritten)).trans rfl

/-- The transposed feature table, written by the first stretch and by nothing after it. -/
private theorem W4_v4 : (W4 m ρ c (Proc.devRef .tc main_v4) : S3x1048576.Idx → EReal)
    = transpose S3x1048576 [1, 0] (aX m c) transposes_S1048576x3_S3x1048576_1_0 := by
  refine (W4_first m ρ c main_v4 (by decide) (by unwritten) (by unwritten)).trans ?_
  dsimp only [W1]; after_results

/-- The destination words as a vector: row 1 of the edge endpoints, written by the first stretch and by nothing
    after it. -/
private theorem W4_v3 : (W4 m ρ c (Proc.devRef .tc main_v3) : IVec S4194304 32)
    = shapeCast S4194304 (extractStridedSlice S1x4194304 ![1, 0] (aEI m c) slices_S2x4194304_S1x4194304_1_0)
        shapeCasts_S1x4194304_S4194304 := by
  refine (W4_first m ρ c main_v3 (by decide) (by unwritten) (by unwritten)).trans ?_
  dsimp only [W1]; after_results; rfl

/-- The edge region's output array at its exit. -/
private theorem W4_v12 : (W4 m ρ c (Proc.devRef .tc main_v12) : S4x4194304.Idx → EReal) = edgeArrOf (V3 m ρ) c :=
  W4_arr m ρ c 5

/-! ## The node region's inputs -/

theorem V5_xT (k : Fin 3) (n : Fin 1048576) :
    (V5 m ρ c main_v4 : S3x1048576.Idx → EReal) (ix2 k n) = aX m c (ix2 n k) := by
  have e : (V5 m ρ c main_v4 : S3x1048576.Idx → EReal) = W4 m ρ c (Proc.devRef .tc main_v4) := by
    dsimp only [V5, W5]; unwritten
  rw [e, W4_v4]
  exact transpose_ix2_apply _ _ k n

theorem V5_acc (k : Fin 4) (n : Fin 1048576) :
    (V5 m ρ c main_v17 : S4x1048576.Idx → EReal) (ix2 k n)
      = ∑ e : Fin 4194304, if Spec.Lands (aEI m c) e n
          then edgeArrOf (V3 m ρ) c (ix2 k e) else 0 := by
  have e : (V5 m ρ c main_v17 : S4x1048576.Idx → EReal)
      = transpose S4x1048576 [1, 0]
          (Host.scatterAdd (F := Ideal) scatter_S1048576x4_S4194304x1_S4194304x4_1_0_0_1
            (broadcastInDim S1048576x4 ![] bcast_S_S1048576x4 (constant (F := Ideal) S_ .f32 0x00000000#32))
            (broadcastInDim S4194304x1 ![0] bcast_S4194304_S4194304x1_0
              (W4 m ρ c (Proc.devRef .tc main_v3) : IVec S4194304 32))
            (transpose S4194304x4 [1, 0] (W4 m ρ c (Proc.devRef .tc main_v12) : S4x4194304.Idx → EReal)
              transposes_S4x4194304_S4194304x4_1_0))
          transposes_S1048576x4_S4x1048576_1_0 := by
    dsimp only [V5, W5]; after_results
  rw [e, W4_v3, W4_v12]
  -- read the result at (k, n): the scatter's array at (n, k), a zero plus the landed rows' column k
  refine (transpose_ix2_apply _ _ k n).trans ?_
  rw [Cert.LibScatterHost.scatterAdd2_apply _ rfl rfl rfl rfl,
    broadcastInDim_apply ![] bcast_S_S1048576x4 _ (ix2 n k) ix0 (fun a => a.elim0), constant_apply,
    Ideal.ofBits_zero_f32, zero_add]
  change (_ : EReal) = _
  refine Finset.sum_congr rfl fun p _ => ?_
  -- edge p's word is row 1 of the endpoints at p; its update row's column k is the edge array at (k, p)
  rw [Cert.Gcn.LayoutReads.broadcastInDim_a_a1_apply, shapeCast_1a_a_apply,
    slice2_axis0_apply 1 _ _ (0 : Fin 1) p (1 : Fin 2) rfl, transpose_ix2_apply]
  exact if_congr Iff.rfl rfl rfl

theorem V5_w2aT (j : Fin 20) (k : Fin 6) :
    (V5 m ρ c main_v18 : S20x6.Idx → EReal) (ix2 j k) = aW2a m c (ix2 k j) := by
  have e : (V5 m ρ c main_v18 : S20x6.Idx → EReal)
      = transpose S20x6 [1, 0] (W4 m ρ c (Proc.devRef .tc main_arg9)) transposes_S6x20_S20x6_1_0 := by
    dsimp only [V5, W5]; after_results
  rw [e, W4_arg9]
  exact transpose_ix2_apply _ _ j k

theorem V5_b2a (j : Fin 20) (u : Fin 1) :
    (V5 m ρ c main_v19 : S20x1.Idx → EReal) (ix2 j u) = aB2a m c (ix1 j) := by
  have e : (V5 m ρ c main_v19 : S20x1.Idx → EReal)
      = shapeCast S20x1 (W4 m ρ c (Proc.devRef .tc main_arg10) : S20.Idx → EReal) shapeCasts_S20_S20x1 := by
    dsimp only [V5, W5]; after_results; rfl
  rw [e, W4_arg10]
  exact Cert.Gcn.LayoutReads.shapeCast_a_a1_apply _ _ j u

theorem V5_w2bT (i : Fin 3) (j : Fin 20) :
    (V5 m ρ c main_v20 : S3x20.Idx → EReal) (ix2 i j) = aW2b m c (ix2 j i) := by
  have e : (V5 m ρ c main_v20 : S3x20.Idx → EReal)
      = transpose S3x20 [1, 0] (W4 m ρ c (Proc.devRef .tc main_arg11)) transposes_S20x3_S3x20_1_0 := by
    dsimp only [V5, W5]; after_results
  rw [e, W4_arg11]
  exact transpose_ix2_apply _ _ i j

theorem V5_b2b (i : Fin 3) (u : Fin 1) :
    (V5 m ρ c main_v21 : S3x1.Idx → EReal) (ix2 i u) = aB2b m c (ix1 i) := by
  have e : (V5 m ρ c main_v21 : S3x1.Idx → EReal)
      = shapeCast S3x1 (W4 m ρ c (Proc.devRef .tc main_arg12) : S3.Idx → EReal) shapeCasts_S3_S3x1 := by
    dsimp only [V5, W5]; after_results; rfl
  rw [e, W4_arg12]
  exact Cert.Gcn.LayoutReads.shapeCast_a_a1_apply _ _ i u

/-! ## What the program returns -/

theorem W7_result (n : Fin 1048576) (i : Fin 3) :
    (W7 m ρ c (Proc.devRef .tc main_v23) : S1048576x3.Idx → EReal) (ix2 n i)
      = nodeArrOf (V5 m ρ) c (ix2 i n) := by
  have e : (W7 m ρ c (Proc.devRef .tc main_v23) : S1048576x3.Idx → EReal)
      = transpose S1048576x3 [1, 0] (W6 m ρ c (Proc.devRef .tc main_v22) : S3x1048576.Idx → EReal)
          transposes_S3x1048576_S1048576x3_1_0 := by
    dsimp only [W7]; after_results
  have e6 : (W6 m ρ c (Proc.devRef .tc main_v22) : S3x1048576.Idx → EReal) = nodeArrOf (V5 m ρ) c :=
    W6_arr m ρ c 6
  rw [e, e6]
  exact transpose_ix2_apply _ _ n i

end Cert.KVal

end
-- ==== Proof.KValue.lean ====
/-
  The kernel program's result, read index by index: element (n, i) of what it returns is the specification's
  result at node n, component i, provided every edge's source word names a node.

  The result is the node region's output transposed; a column of that output is the normalised perceptron of the
  node's own features and of what the node received; what it received is, row by row, the sum over the edges that
  reach it of the edge region's output column; and a column of the edge region's output is the edge perceptron of
  the edge's gathered inputs, with the number one below it, which is how the count of edges arrives.
-/
import proofs.«408884_j82652350644752_3_alg».proof.Proof.KArgs
import proofs.«408884_j82652350644752_3_alg».proof.Proof.KEdgeArr
import proofs.«408884_j82652350644752_3_alg».proof.Proof.KNodeArr
import proofs.«408884_j82652350644752_3_alg».proof.Proof.KHostIn
import proofs.«408884_j82652350644752_3_alg».proof.Proof.KHostInW
import proofs.«408884_j82652350644752_3_alg».proof.Proof.KHostMid
import Idealize.ShloMosaic.Lib.ValueIdx

noncomputable section

namespace Cert.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- Column e of the edge region's output: the edge's three results, then the number one. -/
theorem edge_col (e : Fin 4194304) (he : Spec.SrcInRange (aEI m c) e) (k : Fin 4) :
    edgeArrOf (V3 m ρ) c (ix2 k e)
      = if h : k.val < 3 then Spec.edgeOut (aX m c) (aEI m c) (aEA m c) (aW1a m c) (aB1a m c) (aW1b m c) (aB1b m c) e ⟨k.val, h⟩
        else Spec.one := by
  rw [edge_arr]
  simp only [V3_hin m ρ c e he, V3_w1aT m ρ c, V3_b1a m ρ c, V3_w1bT m ρ c, V3_b1b m ρ c]
  rfl

/-- What node n finds in column n of its second input: the three sums and the count of the specification. -/
theorem acc_col (hrow : ∀ e, Spec.SrcInRange (aEI m c) e) (n : Fin 1048576) :
    (fun k : Fin 4 => (V5 m ρ c main_v17 : S4x1048576.Idx → EReal) (ix2 k n))
      = Spec.nodeAcc (aX m c) (aEI m c) (aEA m c) (aW1a m c) (aB1a m c) (aW1b m c) (aB1b m c) n := by
  funext k
  have hv := V5_acc m ρ c k n
  by_cases hk : k.val < 3
  · have hs : (∑ e : Fin 4194304, if Spec.Lands (aEI m c) e n then edgeArrOf (V3 m ρ) c (ix2 k e) else (0 : EReal))
        = Spec.nodeSum (aX m c) (aEI m c) (aEA m c) (aW1a m c) (aB1a m c) (aW1b m c) (aB1b m c) n ⟨k.val, hk⟩ := by
      unfold Spec.nodeSum
      refine Finset.sum_congr rfl fun e _ => ?_
      rw [edge_col m ρ c e (hrow e) k, dif_pos hk]
    exact hv.trans (hs.trans (by unfold Spec.nodeAcc; rw [dif_pos hk]))
  · have hs : (∑ e : Fin 4194304, if Spec.Lands (aEI m c) e n then edgeArrOf (V3 m ρ) c (ix2 k e) else (0 : EReal))
        = Spec.nodeCnt (aEI m c) n := by
      unfold Spec.nodeCnt
      refine Finset.sum_congr rfl fun e _ => ?_
      rw [edge_col m ρ c e (hrow e) k, dif_neg hk]
    exact hv.trans (hs.trans (by unfold Spec.nodeAcc; rw [dif_neg hk]))

/-- The program's result at (n, i). -/
theorem kernel_value (hrow : ∀ e, Spec.SrcInRange (aEI m c) e) (n : Fin 1048576) (i : Fin 3) :
    (W7 m ρ c (Proc.devRef .tc main_v23) : S1048576x3.Idx → EReal) (ix2 n i)
      = Spec.result (aX m c) (aEI m c) (aEA m c) (aW1a m c) (aB1a m c) (aW1b m c) (aB1b m c)
          (aW2a m c) (aB2a m c) (aW2b m c) (aB2b m c) n i := by
  rw [W7_result, node_arr, acc_col m ρ c hrow n]
  simp only [V5_xT m ρ c, V5_w2aT m ρ c, V5_b2a m ρ c, V5_w2bT m ρ c, V5_b2b m ρ c]
  rfl

end Cert.KVal

end
-- ==== Proof.PreDecode.lean ====
/-
  What the precondition says of the edges' source words: every source word, a negative one moved up by the
  number of nodes, names a node.
-/
import proofs.«408884_j82652350644752_3_alg».proof.Defs
import proofs.«408884_j82652350644752_3_alg».proof.Proof.Gen.Pre_finite_inputs
import proofs.«408884_j82652350644752_3_alg».proof.Proof.KArgs
import proofs.«408884_j82652350644752_3_alg».proof.Proof.LibWordArith
import proofs.«408884_j82652350644752_3_alg».proof.Proof.LibLayoutReads
import Idealize.ShloMosaic.Lib.ReduceAll
import Idealize.ShloMosaic.Lib.StableHlo.Predicate
import Idealize.ShloMosaic.Lib.ValueIdx
import Idealize.ShloMosaic.Lib.Pipeline.Value

noncomputable section

namespace Cert.KVal

open Idealize.ShloMosaic Idealize.ShloMosaic.TcCoe Idealize.ShloMosaic.ValueIdx Idealize.SL.Sem Cert.KernelIdeal Cert.KernelIdeal.Gen

/-- A word in [-1048576, 1048576) read signed, moved up by 1048576 when negative, lies in [0, 1048576): the
    sum of a negative word no less than -1048576 and 1048576 does not wrap. -/
private theorem wrapped_word_range (r : BitVec 32) (h1 : -1048576 ≤ r.toInt) (h2 : r.toInt < 1048576) :
    0 ≤ (Scalar.select (IntOp.cmpi .slt r 0#32) (IntOp.addi r 1048576#32) r).toInt
      ∧ (Scalar.select (IntOp.cmpi .slt r 0#32) (IntOp.addi r 1048576#32) r).toInt < 1048576 := by
  have h0 : (0#32 : BitVec 32).toInt = 0 := by decide
  by_cases hn : r.toInt < 0
  · have hc : IntOp.cmpi .slt r 0#32 = 1#1 := IntOp.cmpi_slt.2 (by rw [h0]; exact hn)
    rw [hc, select_one]
    have hk : (1048576#32 : BitVec 32).toInt = 1048576 := by decide
    have hs : (IntOp.addi r 1048576#32).toInt = r.toInt + 1048576 := by
      show (r + 1048576#32).toInt = r.toInt + 1048576
      rw [BitVec.toInt_add, hk, Int.bmod_def]
      split <;> omega
    rw [hs]
    omega
  · have hc : IntOp.cmpi .slt r 0#32 = 0#1 := by
      rcases BitVec.eq_zero_or_eq_one (IntOp.cmpi .slt r 0#32) with hz | ho
      · exact hz
      · exact absurd (by rw [← h0]; exact IntOp.cmpi_slt.1 ho) hn
    rw [hc, select_zero]
    omega

/-- The shape of one number has one index. -/
private instance : Subsingleton Cert.Pre_finite_inputs.S_.Idx := ⟨fun a b => funext fun d => d.elim0⟩

/-- Row 0 of the [2, 4194304] array of edge words, cut out as a [1, 4194304] array and laid out as a vector,
    reads at position `e` the array's word (0, e). -/
private theorem row0_read (a1 : IVec Cert.Pre_finite_inputs.S2x4194304 32)
    (hs : Cert.Pre_finite_inputs.S2x4194304.Slices ![0, 0] Cert.Pre_finite_inputs.S1x4194304)
    (hc : Cert.Pre_finite_inputs.S1x4194304.ShapeCasts Cert.Pre_finite_inputs.S4194304) (e : Fin 4194304) :
    shapeCast Cert.Pre_finite_inputs.S4194304
        (extractStridedSlice Cert.Pre_finite_inputs.S1x4194304 ![0, 0] a1 hs) hc (ix1 e)
      = a1 (ix2 (0 : Fin 2) e) := by
  refine (Cert.Gcn.LayoutReads.shapeCast_ab_n_apply _ hc e (0 : Fin 1) e (by simp)).trans ?_
  refine extractStridedSlice_apply _ _ _ _ _ (fun ax => ?_)
  match ax with
  | ⟨0, _⟩ => rfl
  | ⟨1, _⟩ => exact (Nat.zero_add _).symm

/-- The last conjunct of the printed precondition, read at one edge: the edge's row-0 word, read signed, lies
    in [-1048576, 1048576). -/
private theorem pre_row0 (a1 : IVec Cert.Pre_finite_inputs.S2x4194304 32) (v48 : IVec Cert.Pre_finite_inputs.S_ 1)
    (v49 v50 : FVec Ideal Cert.Pre_finite_inputs.S3 .f32)
    (h : Cert.Pre_finite_inputs.fn_part3 (F := Ideal) a1 v48 v49 v50 ix0 = 1#1) (e : Fin 4194304) :
    -1048576 ≤ (a1 (ix2 (0 : Fin 2) e)).toInt ∧ (a1 (ix2 (0 : Fin 2) e)).toInt < 1048576 := by
  unfold Cert.Pre_finite_inputs.fn_part3 at h
  dsimp only at h
  have hall := (IntOp.andi_eq_one.1 h).2
  have hbit := Host.reduce_andi_all _ _ _ _ _ hall (ix1 e)
  obtain ⟨hge, hlt⟩ := IntOp.andi_eq_one.1 hbit
  have hlo : (4293918720#32 : BitVec 32).toInt = -1048576 := by decide
  have hhi : (1048576#32 : BitVec 32).toInt = 1048576 := by decide
  have hge' := IntOp.cmpi_sge.1 hge
  have hlt' := IntOp.cmpi_slt.1 hlt
  rw [row0_read] at hge' hlt'
  constructor
  · rw [← hlo]; exact hge'
  · rw [← hhi]; exact hlt'

theorem src_in_range (m : (ℓ : Loc nD τ sig) → Buf (Elt Ideal) ℓ) (h : Cert.Pre_KernelIdeal m) (c : Dev nD)
    (e : Fin 4194304) : Spec.SrcInRange (aEI m c) e := by
  have h0 : Cert.Pre_finite_inputs.fn_part3 (F := Ideal) (aEI m c) _ _ _ ix0 = 1#1 := congrFun (h c) ValueIdx.ix0
  obtain ⟨h1, h2⟩ := pre_row0 _ _ _ _ h0 e
  exact wrapped_word_range _ h1 h2

end Cert.KVal

end
-- ==== Proof.LibGatherClamp.lean ====
/-
  The one-index gathers read at one element, whatever the start index.

  A gather whose start indices are an [e × 1] column (the index vector on axis 1, one component, sent to operand
  axis 0, that axis collapsed) reads, for result row p, the operand row

      min (toNat (idx[p, 0] read as a signed integer)) (n − 1):

  a negative word reads row 0, a word past the last row reads row n − 1, and a word that is a row number reads that
  row. For a rank-1 operand the result element p is that element of the operand; for an [n × f] operand whose second
  axis is an offset axis of full width, result element (p, c) is the operand's element (that row, c).

  No hypothesis is made on the index words. Each statement takes the dimension numbers' fields as hypotheses, so it
  applies to any record with those fields.
-/
import Idealize.ShloMosaic.PureOps.Ideal
import Idealize.ShloMosaic.Lib.ValueIdx
import proofs.«408884_j82652350644752_3_alg».proof.Proof.LibIndexMaps

noncomputable section

namespace Cert.Gcn.GatherClamp

open Idealize.ShloMosaic Idealize.ShloMosaic.ValueIdx Cert.Gcn.IndexMaps

/-- Rank-1 operand of n > 0 elements, [e × 1] start indices, rank-1 result: result element p is the operand's
    element at the index word at (p, 0) read signed, as a natural number, clamped to the last position n − 1. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p) = x (ix1 ⟨min (idx (ix2 p (0 : Fin 1))).toInt.toNat (n - 1), by omega⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start (ix1 p) idx 0 + d.batchCoord (ix1 p) 0 + d.offCoord (ix1 p) 0
    = min (idx (ix2 p (0 : Fin 1))).toInt.toNat (n - 1)
  rw [GatherDims.batchCoord_eq_zero _ _ _ hb, GatherDims.offCoord_eq_zero _ _ _ hkp]
  unfold GatherDims.start
  rw [dif_pos hm, gather_siIdx_rank1 d hivd (ix1 p) _ _ (0 : Fin 1) hi, hsl]
  rfl

/-- [n × f] operand of n > 0 rows, [e × 1] start indices, [e × f] result, the second axis an offset axis of full
    width: result element (p, c) is the operand's element (r, c), where the row r is the index word at (p, 0) read
    signed, as a natural number, clamped to the last row n − 1. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [coord_of_val1 (ix2 p c) _ (hall _ (List.getElem_mem _))]
    show 0 + 0 + c.val = c.val
    omega

end Cert.Gcn.GatherClamp

end
-- ==== Proof.RefValue.lean ====
/-
  The reference program's result, read index by index: element (n, i) of what it returns is the
  specification's result at node n, component i.
-/
import proofs.«408884_j82652350644752_3_alg».proof.Defs
import proofs.«408884_j82652350644752_3_alg».proof.Proof.Gen.ReferenceIdeal.Run
import proofs.«408884_j82652350644752_3_alg».proof.Proof.Gen.ReferenceIdeal.Read
import proofs.«408884_j82652350644752_3_alg».proof.Proof.Spec
import proofs.«408884_j82652350644752_3_alg».proof.Proof.LibIndexMaps
import proofs.«408884_j82652350644752_3_alg».proof.Proof.LibGatherClamp
import proofs.«408884_j82652350644752_3_alg».proof.Proof.LibLayoutReads
import Idealize.ShloMosaic.Lib.ValueIdx
import Idealize.ShloMosaic.Lib.Pipeline.Value

noncomputable section

namespace Cert.RefValue

open Idealize.ShloMosaic Idealize.ShloMosaic.TcCoe Idealize.ShloMosaic.ValueIdx Idealize.SL.Sem Cert.ReferenceIdeal Cert.ReferenceIdeal.Gen

variable (m : (ℓ : Loc nD τ sig) → Buf (Elt Ideal) ℓ) (c : Dev nD)

section Stages

variable (x : (⟨S1048576x3, .f32⟩ : BufTy).Contents (Elt Ideal)) (ei : (⟨S2x4194304, .i32⟩ : BufTy).Contents (Elt Ideal))

/-- Row 0 of the edge index, as a vector: element e is the word at (0, e). -/
private theorem v1_apply (e : Fin 4194304) : Read.val_main_v1 (F := Ideal) ei (ix1 e) = ei (ix2 (0 : Fin 2) e) := by
  rw [Read.val_main_v1_apply, Read.val_main_v0_apply]
  exact congrArg ei (funext fun a => Fin.ext (by
    match a with
    | ⟨0, _⟩ => rfl
    | ⟨1, _⟩ => exact Nat.mod_eq_of_lt e.isLt))

/-- Row 1 of the edge index, as a vector: element e is the word at (1, e). -/
private theorem v3_apply (e : Fin 4194304) : Read.val_main_v3 (F := Ideal) ei (ix1 e) = ei (ix2 (1 : Fin 2) e) := by
  rw [Read.val_main_v3_apply, Read.val_main_v2_apply]
  exact congrArg ei (funext fun a => Fin.ext (by
    match a with
    | ⟨0, _⟩ => rfl
    | ⟨1, _⟩ => exact Nat.mod_eq_of_lt e.isLt))

/-- The source words: a negative word moved up by the number of nodes. -/
private theorem v8_apply (e : Fin 4194304) : Read.val_main_v8 (F := Ideal) ei (ix1 e) = Spec.srcWord ei e := by
  rw [Read.val_main_v8_apply, Read.val_main_v5_apply, Read.val_main_v7_apply, v1_apply, Read.val_main_v4_apply,
    Read.val_main_c_apply, Read.val_main_v6_apply, Read.val_main_c_0_apply]
  rfl

/-- The source words as an [E,1] column. -/
private theorem v9_apply (e : Fin 4194304) : Read.val_main_v9 (F := Ideal) ei (ix2 e (0 : Fin 1)) = Spec.srcWord ei e := by
  rw [Read.val_main_v9_apply]
  exact (congrArg (Read.val_main_v8 (F := Ideal) ei) (funext fun a => Fin.ext (by match a with | ⟨0, _⟩ => rfl))).trans (v8_apply ei e)

/-- The gathered rows: edge e's row is its source node's row of x. -/
private theorem v10_apply (e : Fin 4194304) (k : Fin 3) :
    Read.val_main_v10 (F := Ideal) x ei (ix2 e k) = x (ix2 (Spec.src ei e) k) := by
  unfold Read.val_main_v10
  rw [Cert.Gcn.GatherClamp.gather2_clamp_apply (by decide) _ rfl rfl rfl rfl rfl]
  refine congrArg x (congrArg (fun r => ix2 r k) (Fin.ext ?_))
  show min (BitVec.toInt (Read.val_main_v9 (F := Ideal) ei (ix2 e (0 : Fin 1)))).toNat (1048576 - 1)
    = min (Spec.srcWord ei e).toInt.toNat (1048576 - 1)
  rw [v9_apply]

variable (ea : (⟨S4194304x1, .f32⟩ : BufTy).Contents (Elt Ideal))

/-- Edge e's four inputs: its source node's three features, then its attribute. -/
private theorem v11_apply (e : Fin 4194304) (k : Fin 4) :
    Read.val_main_v11 (F := Ideal) x ei ea (ix2 e k) = Spec.edgeIn x ei ea e k := by
  unfold Read.val_main_v11 Spec.edgeIn
  by_cases h : k.val < 3
  · rw [dif_pos h, concatenate_pair_apply_left (t := S4194304x4) (s₁ := S4194304x3) (s₂ := S4194304x1) 1 _ _ _
      (ix2 e k) rfl (ix2 e (⟨k.val, h⟩ : Fin 3))
      (fun b => by match b with | ⟨0, _⟩ => rfl | ⟨1, _⟩ => rfl), v10_apply]
  · have hk : k.val = 3 := by have := k.isLt; omega
    rw [dif_neg h, concatenate_pair_apply_right (t := S4194304x4) (s₁ := S4194304x3) (s₂ := S4194304x1) 1 _ _ _
      (ix2 e k) rfl rfl (ix2 e (0 : Fin 1))
      (fun b hb => by
        match b with
        | ⟨0, _⟩ => rfl
        | ⟨1, _⟩ => exact absurd rfl hb)
      (by show (0 : ℕ) + 3 = k.val; omega)]

variable (w1a : (⟨S4x20, .f32⟩ : BufTy).Contents (Elt Ideal)) (b1a : (⟨S20, .f32⟩ : BufTy).Contents (Elt Ideal))
  (w1b : (⟨S20x3, .f32⟩ : BufTy).Contents (Elt Ideal)) (b1b : (⟨S3, .f32⟩ : BufTy).Contents (Elt Ideal))

/-- Edge e's hidden unit j: relu of the inputs against column j of the first weights plus the bias. -/
private theorem v16_apply (e : Fin 4194304) (j : Fin 20) :
    Read.val_main_v16 (F := Ideal) x ei ea w1a b1a (ix2 e j)
      = max ((∑ k : Fin 4, Spec.edgeIn x ei ea e k * w1a (ix2 k j)) + b1a (ix1 j)) 0 := by
  have hl : ∀ k : Fin 4, Read.lidx_main_v12 (ix2 e j) k = ix2 e k := fun k =>
    funext fun a => Fin.ext (by match a with | ⟨0, _⟩ => rfl | ⟨1, _⟩ => rfl)
  have hr : ∀ k : Fin 4, Read.ridx_main_v12 (ix2 e j) k = ix2 k j := fun k =>
    funext fun a => Fin.ext (by match a with | ⟨0, _⟩ => rfl | ⟨1, _⟩ => rfl)
  have hb : Read.idx_main_v13 (Read.idx_main_v14 (ix2 e j)) = ix1 j :=
    funext fun a => Fin.ext (by match a with | ⟨0, _⟩ => rfl)
  rw [Read.val_main_v16_apply, Read.val_main_v15_apply, Read.val_main_v12_apply, Read.val_main_v14_apply,
    Read.val_main_v13_apply, Read.val_main_call0_v0_apply, Read.val_main_call0_cst_apply]
  simp only [Ideal.maximumf_def, Ideal.addf_def, Ideal.ofBits_def, Ideal.ofBits_zero_f32, hl, hr, hb, v11_apply]

/-- Edge e's three results. -/
private theorem v20_apply (e : Fin 4194304) (i : Fin 3) :
    Read.val_main_v20 (F := Ideal) x ei ea w1a b1a w1b b1b (ix2 e i) = Spec.edgeOut x ei ea w1a b1a w1b b1b e i := by
  have hl : ∀ j : Fin 20, Read.lidx_main_v17 (ix2 e i) j = ix2 e j := fun j =>
    funext fun a => Fin.ext (by match a with | ⟨0, _⟩ => rfl | ⟨1, _⟩ => rfl)
  have hr : ∀ j : Fin 20, Read.ridx_main_v17 (ix2 e i) j = ix2 j i := fun j =>
    funext fun a => Fin.ext (by match a with | ⟨0, _⟩ => rfl | ⟨1, _⟩ => rfl)
  have hb : Read.idx_main_v18 (Read.idx_main_v19 (ix2 e i)) = ix1 i :=
    funext fun a => Fin.ext (by match a with | ⟨0, _⟩ => rfl)
  unfold Spec.edgeOut Spec.mlp
  rw [Read.val_main_v20_apply, Read.val_main_v17_apply, Read.val_main_v19_apply, Read.val_main_v18_apply]
  simp only [Ideal.addf_def, hl, hr, hb, v16_apply]

/-- The destination words as an [E,1] column: row 1 of the edge index. -/
private theorem v22_apply (e : Fin 4194304) : Read.val_main_v22 (F := Ideal) ei (ix2 e (0 : Fin 1)) = ei (ix2 (1 : Fin 2) e) := by
  rw [Read.val_main_v22_apply]
  exact (congrArg (Read.val_main_v3 (F := Ideal) ei) (funext fun a => Fin.ext (by match a with | ⟨0, _⟩ => rfl))).trans (v3_apply ei e)

/-- The same column, as the count's scatter reads it. -/
private theorem v26_apply (e : Fin 4194304) : Read.val_main_v26 (F := Ideal) ei (ix2 e (0 : Fin 1)) = ei (ix2 (1 : Fin 2) e) := by
  rw [Read.val_main_v26_apply]
  exact (congrArg (Read.val_main_v3 (F := Ideal) ei) (funext fun a => Fin.ext (by match a with | ⟨0, _⟩ => rfl))).trans (v3_apply ei e)

/-- The accumulating row scatter at the reference's dimension numbers, for any arrays: element (r, c) is the
    operand's element plus column c of the update rows whose word, read signed, is r. -/
private theorem scatterRows_apply (X : (⟨S1048576x3, .f32⟩ : BufTy).Contents (Elt Ideal))
    (I : (⟨S4194304x1, .i32⟩ : BufTy).Contents (Elt Ideal)) (V : (⟨S4194304x3, .f32⟩ : BufTy).Contents (Elt Ideal))
    (r : Fin 1048576) (c : Fin 3) :
    Host.scatterAdd (F := Ideal) (φ := .f32) scatter_S1048576x3_S4194304x1_S4194304x3_1_0_0_1 X I V (ix2 r c)
      = X (ix2 r c) + ∑ p : Fin 4194304, if (I (ix2 p (0 : Fin 1))).toInt = ((r.val : ℕ) : Int) then V (ix2 p c) else 0 :=
  Cert.Gcn.IndexMaps.hostScatterAdd2_apply scatter_S1048576x3_S4194304x1_S4194304x3_1_0_0_1 rfl rfl rfl rfl X I V r c

/-- The accumulating scatter of a vector at the reference's dimension numbers, for any arrays. -/
private theorem scatterVec_apply (X : (⟨S1048576, .f32⟩ : BufTy).Contents (Elt Ideal))
    (I : (⟨S4194304x1, .i32⟩ : BufTy).Contents (Elt Ideal)) (V : (⟨S4194304, .f32⟩ : BufTy).Contents (Elt Ideal))
    (r : Fin 1048576) :
    Host.scatterAdd (F := Ideal) (φ := .f32) scatter_S1048576_S4194304x1_S4194304_n_0_0_1 X I V (ix1 r)
      = X (ix1 r) + ∑ p : Fin 4194304, if (I (ix2 p (0 : Fin 1))).toInt = ((r.val : ℕ) : Int) then V (ix1 p) else 0 :=
  Cert.Gcn.IndexMaps.hostScatterAdd1_apply scatter_S1048576_S4194304x1_S4194304_n_0_0_1 rfl rfl rfl rfl X I V r

/-- What node n receives: zero plus the results of the edges whose destination word reads n. -/
private theorem v23_apply (n : Fin 1048576) (i : Fin 3) :
    Read.val_main_v23 (F := Ideal) x ei ea w1a b1a w1b b1b (ix2 n i) = Spec.nodeSum x ei ea w1a b1a w1b b1b n i := by
  unfold Read.val_main_v23 Spec.nodeSum
  rw [scatterRows_apply, Read.val_main_v21_apply, Read.val_main_cst_apply]
  simp only [Ideal.ofBits_def, Ideal.ofBits_zero_f32, zero_add, v22_apply, v20_apply]
  exact Finset.sum_congr rfl fun e _ => if_congr Iff.rfl rfl rfl

/-- How many edges reach node n: zero plus the number one for each edge whose destination word reads n. -/
private theorem v27_apply (n : Fin 1048576) : Read.val_main_v27 (F := Ideal) ei (ix1 n) = Spec.nodeCnt ei n := by
  unfold Read.val_main_v27 Spec.nodeCnt
  rw [scatterVec_apply, Read.val_main_v25_apply, Read.val_main_cst_2_apply]
  simp only [Ideal.ofBits_def, Ideal.ofBits_zero_f32, zero_add, v26_apply, Read.val_main_v24_apply, Read.val_main_cst_1_apply]
  exact Finset.sum_congr rfl fun e _ => if_congr Iff.rfl rfl rfl

/-- Node n's received sum in column i over its count, the count raised to one where it is less. -/
private theorem v32_apply (n : Fin 1048576) (i : Fin 3) :
    Read.val_main_v32 (F := Ideal) x ei ea w1a b1a w1b b1b (ix2 n i)
      = Ideal.div (Spec.nodeSum x ei ea w1a b1a w1b b1b n i) (max (Spec.nodeCnt ei n) Spec.one) := by
  have hc : Read.idx_main_v30 (Read.idx_main_v31 (ix2 n i)) = ix1 n :=
    funext fun a => Fin.ext (by match a with | ⟨0, _⟩ => rfl)
  rw [Read.val_main_v32_apply, Read.val_main_v31_apply, Read.val_main_v30_apply, Read.val_main_v29_apply,
    Read.val_main_v28_apply, Read.val_main_cst_3_apply, v23_apply]
  simp only [Ideal.hostDivf_def, Ideal.maximumf_def, Ideal.ofBits_def, hc, v27_apply]
  rfl

/-- Node n's six inputs: its own three features, then the three means. -/
private theorem v33_apply (n : Fin 1048576) (k : Fin 6) :
    Read.val_main_v33 (F := Ideal) x ei ea w1a b1a w1b b1b (ix2 n k)
      = Spec.nodeInK (fun k => x (ix2 n k)) (Spec.nodeAcc x ei ea w1a b1a w1b b1b n) k := by
  unfold Read.val_main_v33 Spec.nodeInK
  by_cases h : k.val < 3
  · rw [dif_pos h, concatenate_pair_apply_left (t := S1048576x6) (s₁ := S1048576x3) (s₂ := S1048576x3) 1 _ _ _
      (ix2 n k) rfl (ix2 n (⟨k.val, h⟩ : Fin 3)) (fun b => by match b with | ⟨0, _⟩ => rfl | ⟨1, _⟩ => rfl)]
  · have hk : k.val - 3 < 3 := by have := k.isLt; omega
    have h1 : Spec.nodeAcc x ei ea w1a b1a w1b b1b n (⟨k.val - 3, by omega⟩ : Fin 4)
        = Spec.nodeSum x ei ea w1a b1a w1b b1b n ⟨k.val - 3, hk⟩ := dif_pos hk
    have h2 : Spec.nodeAcc x ei ea w1a b1a w1b b1b n (3 : Fin 4) = Spec.nodeCnt ei n := dif_neg (by decide)
    rw [dif_neg h, concatenate_pair_apply_right (t := S1048576x6) (s₁ := S1048576x3) (s₂ := S1048576x3) 1 _ _ _
      (ix2 n k) rfl rfl (ix2 n (⟨k.val - 3, hk⟩ : Fin 3))
      (fun b hb => by
        match b with
        | ⟨0, _⟩ => rfl
        | ⟨1, _⟩ => exact absurd rfl hb)
      (by show (k.val - 3) + 3 = k.val; omega), v32_apply, h1, h2]

variable (w2a : (⟨S6x20, .f32⟩ : BufTy).Contents (Elt Ideal)) (b2a : (⟨S20, .f32⟩ : BufTy).Contents (Elt Ideal))
  (w2b : (⟨S20x3, .f32⟩ : BufTy).Contents (Elt Ideal)) (b2b : (⟨S3, .f32⟩ : BufTy).Contents (Elt Ideal))

/-- Node n's hidden unit j: relu of its six inputs against column j of the first weights plus the bias. -/
private theorem v38_apply (n : Fin 1048576) (j : Fin 20) :
    Read.val_main_v38 (F := Ideal) x ei ea w1a b1a w1b b1b w2a b2a (ix2 n j)
      = max ((∑ k : Fin 6, Spec.nodeInK (fun k => x (ix2 n k)) (Spec.nodeAcc x ei ea w1a b1a w1b b1b n) k
          * w2a (ix2 k j)) + b2a (ix1 j)) 0 := by
  have hl : ∀ k : Fin 6, Read.lidx_main_v34 (ix2 n j) k = ix2 n k := fun k =>
    funext fun a => Fin.ext (by match a with | ⟨0, _⟩ => rfl | ⟨1, _⟩ => rfl)
  have hr : ∀ k : Fin 6, Read.ridx_main_v34 (ix2 n j) k = ix2 k j := fun k =>
    funext fun a => Fin.ext (by match a with | ⟨0, _⟩ => rfl | ⟨1, _⟩ => rfl)
  have hb : Read.idx_main_v35 (Read.idx_main_v36 (ix2 n j)) = ix1 j :=
    funext fun a => Fin.ext (by match a with | ⟨0, _⟩ => rfl)
  rw [Read.val_main_v38_apply, Read.val_main_v37_apply, Read.val_main_v34_apply, Read.val_main_v36_apply,
    Read.val_main_v35_apply, Read.val_main_call1_v0_apply, Read.val_main_call1_cst_apply]
  simp only [Ideal.maximumf_def, Ideal.addf_def, Ideal.ofBits_def, Ideal.ofBits_zero_f32, hl, hr, hb, v33_apply]

/-- Node n's three results before the division by their length. -/
private theorem v42_apply (n : Fin 1048576) (i : Fin 3) :
    Read.val_main_v42 (F := Ideal) x ei ea w1a b1a w1b b1b w2a b2a w2b b2b (ix2 n i)
      = Spec.mlp (Spec.nodeInK (fun k => x (ix2 n k)) (Spec.nodeAcc x ei ea w1a b1a w1b b1b n))
          (fun k j => w2a (ix2 k j)) (fun j => b2a (ix1 j)) (fun j i => w2b (ix2 j i)) (fun i => b2b (ix1 i)) i := by
  have hl : ∀ j : Fin 20, Read.lidx_main_v39 (ix2 n i) j = ix2 n j := fun j =>
    funext fun a => Fin.ext (by match a with | ⟨0, _⟩ => rfl | ⟨1, _⟩ => rfl)
  have hr : ∀ j : Fin 20, Read.ridx_main_v39 (ix2 n i) j = ix2 j i := fun j =>
    funext fun a => Fin.ext (by match a with | ⟨0, _⟩ => rfl | ⟨1, _⟩ => rfl)
  have hb : Read.idx_main_v40 (Read.idx_main_v41 (ix2 n i)) = ix1 i :=
    funext fun a => Fin.ext (by match a with | ⟨0, _⟩ => rfl)
  unfold Spec.mlp
  rw [Read.val_main_v42_apply, Read.val_main_v39_apply, Read.val_main_v41_apply, Read.val_main_v40_apply]
  simp only [Ideal.addf_def, hl, hr, hb, v38_apply]

/-- The reference's last stage at (n, i) is the specification's result. -/
private theorem v48_apply (n : Fin 1048576) (i : Fin 3) :
    Read.val_main_v48 (F := Ideal) x ei ea w1a b1a w1b b1b w2a b2a w2b b2b (ix2 n i)
      = Spec.result x ei ea w1a b1a w1b b1b w2a b2a w2b b2b n i := by
  have hs : ∀ k : Fin 3, Read.idx_main_v44 (Read.idx_main_v45 (Read.idx_main_v47 (ix2 n i))) k = ix2 n k := fun k =>
    funext fun a => Fin.ext (by match a with | ⟨0, _⟩ => rfl | ⟨1, _⟩ => rfl)
  unfold Spec.result Spec.unit
  rw [Read.val_main_v48_apply, Read.val_main_v47_apply, Read.val_main_v46_apply, Read.val_main_v45_apply,
    Read.val_main_v44_apply, Read.val_main_cst_4_apply]
  simp only [Ideal.hostDivf_def, Ideal.hostUnary_sqrt_def, Ideal.mulf_def, Ideal.ofBits_def, Ideal.ofBits_zero_f32,
    zero_add, hs, Read.val_main_v43_apply, v42_apply]

end Stages
theorem result_apply (n : Fin 1048576) (i : Fin 3) :
    (Cert.ReferenceIdeal.Value.res_main_v48 (F := Ideal) m c : S1048576x3.Idx → EReal) (ix2 n i)
      = Spec.result (m ((c.tc : Thread nD τ).loc main_arg0)) (m ((c.tc : Thread nD τ).loc main_arg1))
          (m ((c.tc : Thread nD τ).loc main_arg2)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) n i := by
  rw [Read.val_main_v48_eq]
  exact v48_apply _ _ _ _ _ _ _ _ _ _ _ n i

end Cert.RefValue

end
-- ==== Proof.lean ====
/-
  A message-passing layer on a graph of 1048576 nodes and 4194304 edges, computed two ways.

  Both programs send, for every edge, its source node's three features and its own attribute through a two-layer
  perceptron, add the three results to the edge's destination node, divide each node's sum by the number of edges
  that reached it (at least one), send the node's own features and that mean through a second perceptron, and
  divide the result by its Euclidean length. The kernel program works on transposed arrays — features along rows,
  edges or nodes along columns —, multiplies weight by input where the reference multiplies input by weight, and
  carries the count of edges as a fourth row of ones through the same sum as the three results; over the extended
  reals these are the same numbers: a product commutes, the two sums run over the same edges in the same order, and
  a transposed array read at (i, n) is the array read at (n, i).

  The one place the two differ is a source index outside the node range: the reference's gather clamps it, the
  kernel's take fills the column with a fixed word. The precondition keeps every source index in range
  (from minus the number of nodes, a negative index counting from the end, up to the number of nodes), where both
  read the same node.

  The three frames are the generated ones (the reference's is its generated run with the result dropped); the
  idealization rewrote nothing. The value claim pairs the kernel program's run with its result named and the
  reference's generated run, and shows the two results equal index by index through one specification.
-/
import proofs.«408884_j82652350644752_3_alg».proof.Defs
import proofs.«408884_j82652350644752_3_alg».proof.Proof.Gen.Kernel
import proofs.«408884_j82652350644752_3_alg».proof.Proof.Gen.Kernel.Skeleton
import proofs.«408884_j82652350644752_3_alg».proof.Proof.Gen.Kernel.Launch
import proofs.«408884_j82652350644752_3_alg».proof.Proof.Gen.Kernel.Points
import proofs.«408884_j82652350644752_3_alg».proof.Proof.Gen.Kernel.Frame
import proofs.«408884_j82652350644752_3_alg».proof.Proof.Gen.KernelIdeal
import proofs.«408884_j82652350644752_3_alg».proof.Proof.Gen.KernelIdeal.Skeleton
import proofs.«408884_j82652350644752_3_alg».proof.Proof.Gen.KernelIdeal.Launch
import proofs.«408884_j82652350644752_3_alg».proof.Proof.Gen.KernelIdeal.Points
import proofs.«408884_j82652350644752_3_alg».proof.Proof.Gen.KernelIdeal.Frame
import proofs.«408884_j82652350644752_3_alg».proof.Proof.Gen.ReferenceIdeal
import proofs.«408884_j82652350644752_3_alg».proof.Proof.Gen.ReferenceIdeal.Run
import proofs.«408884_j82652350644752_3_alg».proof.Proof.Gen.ReferenceIdeal.Read
import proofs.«408884_j82652350644752_3_alg».proof.Proof.Gen.Pre_finite_inputs
import proofs.«408884_j82652350644752_3_alg».proof.Proof.KRun
import proofs.«408884_j82652350644752_3_alg».proof.Proof.KValue
import proofs.«408884_j82652350644752_3_alg».proof.Proof.PreDecode
import proofs.«408884_j82652350644752_3_alg».proof.Proof.RefValue
import Idealize.ShloMosaic.Adequacy
import Idealize.ShloMosaic.Init
import Idealize.ShloMosaic.Lib.ValueIdx

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel program's result and the reference's are, element by
    element, the specification's result: the kernel's because every source index is in range, the reference's
    always. -/
theorem algebraic : Cert.algebraic_KernelIdeal_ReferenceIdeal := by
  intro m ρ m' ρ' hpre hagree
  refine ⟨fun c => Cert.KernelIdeal.Gen.W7 m ρ c (Proc.devRef .tc Cert.KernelIdeal.main_v23),
    Cert.KernelIdeal.KRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  funext j
  obtain ⟨n, i, rfl⟩ : ∃ (n : Fin 1048576) (i : Fin 3), j = ix2 n i := ⟨j 0, j 1, eq_ix2 j⟩
  refine (Cert.RefValue.result_apply m' c n i).trans ?_
  refine Eq.trans ?_ (Cert.KVal.kernel_value m ρ c (fun e => Cert.KVal.src_in_range m hpre c e) n i).symm
  obtain ⟨h0, h1, h2, _, _, h5, h6, h7, h8, h9, h10, h11, h12⟩ := hagree c
  rw [h0, h1, h2, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
